-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S4000x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500x128 : Shape := ⟨2, ![500, 128]⟩
abbrev S1000000 : Shape := ⟨1, ![1000000]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_

variable [Facts]

def fn {F : FTy → Type} [FloatOps F] (main_arg0 : FVec F S50000x128 .f32) (main_arg1 : FVec F S500x128 .f32) (main_arg2 : IVec S1000000 32) (main_arg3 : IVec S1000000 32) (main_arg4 : IVec S1000000 32) (main_arg5 : IVec S256 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500x128 .f32 := Host.absf main_arg1
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  main_v8
-- ==== Kernel.lean ====
abbrev S50000x128 : Shape := ⟨2, ![50000, 128]⟩
abbrev S500x128 : Shape := ⟨2, ![500, 128]⟩
abbrev S1000000 : Shape := ⟨1, ![1000000]⟩
abbrev S256 : Shape := ⟨1, ![256]⟩
abbrev S_ : Shape := ⟨0, ![]⟩
abbrev S1000000x1 : Shape := ⟨2, ![1000000, 1]⟩
abbrev S1000000x128 : Shape := ⟨2, ![1000000, 128]⟩
abbrev S256x1 : Shape := ⟨2, ![256, 1]⟩
abbrev S256x128 : Shape := ⟨2, ![256, 128]⟩
abbrev S2x256x256 : Shape := ⟨3, ![2, 256, 256]⟩
abbrev S4000x128 : Shape := ⟨2, ![4000, 128]⟩
abbrev S4000x1 : Shape := ⟨2, ![4000, 1]⟩
abbrev S1x256x256 : Shape := ⟨3, ![1, 256, 256]⟩
abbrev S256x256 : Shape := ⟨2, ![256, 256]⟩
abbrev S4000 : Shape := ⟨1, ![4000]⟩
abbrev S1x256 : Shape := ⟨2, ![1, 256]⟩
abbrev S4000x256 : Shape := ⟨2, ![4000, 256]⟩
abbrev S1x128 : Shape := ⟨2, ![1, 128]⟩

abbrev nBuf : Space → Nat
  | .hbm => 73
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S500x128, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S256, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x128, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x128, .f32⟩
  | .hbm, ⟨24, _⟩ => ⟨S1000000x128, .f32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S256, .i32⟩
  | .hbm, ⟨32, _⟩ => ⟨S256x1, .i32⟩
  | .hbm, ⟨33, _⟩ => ⟨S256x128, .f32⟩
  | .hbm, ⟨34, _⟩ => ⟨S1000000x1, .i32⟩
  | .hbm, ⟨35, _⟩ => ⟨S2x256x256, .f32⟩
  | .hbm, ⟨36, _⟩ => ⟨S1x256x256, .f32⟩
  | .hbm, ⟨37, _⟩ => ⟨S256x256, .f32⟩
  | .hbm, ⟨38, _⟩ => ⟨S1x256x256, .f32⟩
  | .hbm, ⟨39, _⟩ => ⟨S256x256, .f32⟩
  | .hbm, ⟨40, _⟩ => ⟨S256x256, .f32⟩
  | .hbm, ⟨41, _⟩ => ⟨S256x128, .f32⟩
  | .hbm, ⟨42, _⟩ => ⟨S256x1, .f32⟩
  | .hbm, ⟨43, _⟩ => ⟨S256, .f32⟩
  | .hbm, ⟨44, _⟩ => ⟨S256x1, .f32⟩
  | .hbm, ⟨45, _⟩ => ⟨S256, .f32⟩
  | .hbm, ⟨46, _⟩ => ⟨S256x1, .f32⟩
  | .hbm, ⟨47, _⟩ => ⟨S256, .f32⟩
  | .hbm, ⟨48, _⟩ => ⟨S256, .f32⟩
  | .hbm, ⟨49, _⟩ => ⟨S256x128, .f32⟩
  | .hbm, ⟨50, _⟩ => ⟨S_, .f32⟩
  | .hbm, ⟨51, _⟩ => ⟨S256, .f32⟩
  | .hbm, ⟨52, _⟩ => ⟨S256x128, .f32⟩
  | .hbm, ⟨53, _⟩ => ⟨S_, .f32⟩
  | .hbm, ⟨54, _⟩ => ⟨S256, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S256, .f32⟩
  | .hbm, ⟨59, _⟩ => ⟨S256, .f32⟩
  | .hbm, ⟨60, _⟩ => ⟨S256, .f32⟩
  | .hbm, ⟨61, _⟩ => ⟨S256, .f32⟩
  | .hbm, ⟨62, _⟩ => ⟨S_, .f32⟩
  | .hbm, ⟨63, _⟩ => ⟨S256, .f32⟩
  | .hbm, ⟨64, _⟩ => ⟨S256, .i1⟩
  | .hbm, ⟨65, _⟩ => ⟨S_, .f32⟩
  | .hbm, ⟨66, _⟩ => ⟨S256, .f32⟩
  | .hbm, ⟨67, _⟩ => ⟨S256, .f32⟩
  | .hbm, ⟨68, _⟩ => ⟨S256, .f32⟩
  | .hbm, ⟨69, _⟩ => ⟨S_, .f32⟩
  | .hbm, ⟨70, _⟩ => ⟨S_, .f32⟩
  | .hbm, ⟨71, _⟩ => ⟨S256, .f32⟩
  | .hbm, ⟨72, _⟩ => ⟨S256, .f32⟩
  | .local _ .vmem, ⟨0, _⟩ => ⟨S4000x128, .f32⟩
  | .local _ .vmem, ⟨1, _⟩ => ⟨S4000x128, .f32⟩
  | .local _ .vmem, ⟨2, _⟩ => ⟨S4000x1, .i32⟩
  | .local _ .vmem, ⟨3, _⟩ => ⟨S4000x1, .i32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_call0_v0 : Ref sig .tc := ⟨.hbm, 70, rfl⟩
abbrev main_call0_v1 : Ref sig .tc := ⟨.hbm, 71, rfl⟩
abbrev main_v52 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v57 : BitVec 1 := Scalar.cmpi .eq arg1 c124_i32
  let v58 : BitVec 32 := Scalar.extui v57
  let c0_i32_11 : BitVec 32 := 0#32
  let v59 : BitVec 1 := Scalar.cmpi .ne v58 c0_i32_11
  v59

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S256 : S_.BroadcastsInDim S256 (![] : Fin 0 → Fin S256.rank)
  bcast_S256_S256x1_0 : S256.BroadcastsInDim S256x1 (![0] : Fin 1 → Fin S256x1.rank)
  shapeCasts_S1000000_S1000000x1 : S1000000.ShapeCasts S1000000x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reduces_S4000x128_S4000 : S4000x128.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S1x256_d1_w32 : S1x256.Iotas .tc 32 [1]
  broadcasts_S4000x1_S4000x256 : S4000x1.Broadcasts S4000x256
  broadcasts_S1x256_S4000x256 : S1x256.Broadcasts S4000x256
  natLt_1_32 : 1 < 32
  bitsLt_bf16_f32 : FTy.bits .bf16 < FTy.bits .f32
  iota_S1x128_d1_w32 : S1x128.Iotas .tc 32 [1]
  broadcasts_S4000x1_S4000x128 : S4000x1.Broadcasts S4000x128
  broadcasts_S1x128_S4000x128 : S1x128.Broadcasts S4000x128
  concatenates_S4000x128_S4000x128_S4000x256_d1 : Shape.Concatenates [S4000x128, S4000x128] S4000x256 1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  slices_S2x256x256_S1x256x256_0_0_0 : S2x256x256.Slices ![0, 0, 0] S1x256x256
  slices_S2x256x256_S1x256x256_1_0_0 : S2x256x256.Slices ![1, 0, 0] S1x256x256
  slices_S256x256_S256x128_0_0 : S256x256.Slices ![0, 0] S256x128
  slices_S256x256_S256x1_0_128 : S256x256.Slices ![0, 128] S256x1
  shapeCasts_S256x1_S256 : S256x1.ShapeCasts S256
  slices_S256x256_S256x1_0_129 : S256x256.Slices ![0, 129] S256x1
  slices_S256x256_S256x1_0_130 : S256x256.Slices ![0, 130] S256x1
  reducesTo_S256x128_S256_d1 : S256x128.ReducesTo [1] S256
  h_S_ : 0 < S_.numel
  gather_S50000x128_S1000000x1_S1000000x128_1_0_n_n_0_1_1128_wf : GatherDims.WF S50000x128 S1000000x1 S1000000x128 [1] [0] [] [0] [] 1 ![1, 128]
  gather_S500x128_S256x1_S256x128_1_0_n_n_0_1_1128_wf : GatherDims.WF S500x128 S256x1 S256x128 [1] [0] [] [0] [] 1 ![1, 128]
  dot_S4000x256_S4000x256_S256x256_0_0_1_1_n_n_wf : DotDims.WF S4000x256 S4000x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .f32 = 32 ∨ (Rect.block (s := S1000000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1000000x1.size a
  hwx0_1 : ∀ i : grid0.Coords, EltTy.bits .i32 = 32 ∨ (Rect.block (s := S1000000x1) S4000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S2x256x256.size a
  hwx0_2 : ∀ i : grid0.Coords, EltTy.bits .f32 = 32 ∨ (Rect.block (s := S2x256x256) S1x256x256.size (cc0_transform_2 i) (hinb0_2 i)).WholeWords (EltTy.packing .f32)

variable [Facts₀]

def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def gather_S500x128_S256x1_S256x128_1_0_n_n_0_1_1128 : GatherDims S500x128 S256x1 S256x128 where
  offsetDims := [1]
  collapsedSliceDims := [0]
  operandBatchingDims := []
  startIndicesBatchingDims := []
  startIndexMap := [0]
  indexVectorDim := 1
  sliceSizes := ![1, 128]
  wf := gather_S500x128_S256x1_S256x128_1_0_n_n_0_1_1128_wf
def dot_S4000x256_S4000x256_S256x256_0_0_1_1_n_n : DotDims S4000x256 S4000x256 S256x256 where
  lhsContracting := [0]
  rhsContracting := [0]
  lhsNonContracting := [1]
  rhsNonContracting := [1]
  lhsBatch := []
  rhsBatch := []
  wf := dot_S4000x256_S4000x256_S256x256_0_0_1_1_n_n_wf

abbrev win0_0 : Pipeline.Window sig grid0 :=
  Pipeline.Window.ofSpec (Memref.whole main_v14) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S500x128 : Shape := ⟨2, ![500, 128]⟩
abbrev S1000000 : Shape := ⟨1, ![1000000]⟩
abbrev S256 : Shape := ⟨1, ![256]⟩
abbrev S_ : Shape := ⟨0, ![]⟩
abbrev S1000000x1 : Shape := ⟨2, ![1000000, 1]⟩
abbrev S1000000x128 : Shape := ⟨2, ![1000000, 128]⟩

abbrev nBuf : Space → Nat
  | .hbm => 69
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500x128, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S256, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x128, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x128, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000, .i32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x128, .f32⟩
  | .hbm, ⟨42, _⟩ => ⟨S1000000x128, .f32⟩
  | .hbm, ⟨43, _⟩ => ⟨S1000000x128, .f32⟩
  | .hbm, ⟨44, _⟩ => ⟨S1000000x128, .f32⟩
  | .hbm, ⟨45, _⟩ => ⟨S_, .f32⟩
  | .hbm, ⟨46, _⟩ => ⟨S1000000, .f32⟩
  | .hbm, ⟨47, _⟩ => ⟨S1000000, .f32⟩
  | .hbm, ⟨48, _⟩ => ⟨S_, .f32⟩
  | .hbm, ⟨49, _⟩ => ⟨S256, .f32⟩
  | .hbm, ⟨50, _⟩ => ⟨S1000000x1, .i32⟩
  | .hbm, ⟨51, _⟩ => ⟨S256, .f32⟩
  | .hbm, ⟨52, _⟩ => ⟨S_, .f32⟩
  | .hbm, ⟨53, _⟩ => ⟨S1000000, .f32⟩
  | .hbm, ⟨54, _⟩ => ⟨S_, .f32⟩
  | .hbm, ⟨55, _⟩ => ⟨S256, .f32⟩
  | .hbm, ⟨56, _⟩ => ⟨S1000000x1, .i32⟩
  | .hbm, ⟨57, _⟩ => ⟨S256, .f32⟩
  | .hbm, ⟨58, _⟩ => ⟨S_, .f32⟩
  | .hbm, ⟨59, _⟩ => ⟨S256, .f32⟩
  | .hbm, ⟨60, _⟩ => ⟨S256, .i1⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S_, .f32⟩
  | .hbm, ⟨66, _⟩ => ⟨S_, .f32⟩
  | .hbm, ⟨67, _⟩ => ⟨S256, .f32⟩
  | .hbm, ⟨68, _⟩ => ⟨S256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_call0_v0 : Ref sig .tc := ⟨.hbm, 66, rfl⟩
abbrev main_call0_v1 : Ref sig .tc := ⟨.hbm, 67, rfl⟩
abbrev main_v45 : Ref sig .tc := ⟨.hbm, 68, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x128_S1000000_d1 : S1000000x128.ReducesTo [1] S1000000
  h_S_ : 0 < S_.numel
  bcast_S_S256 : S_.BroadcastsInDim S256 (![] : Fin 0 → Fin S256.rank)
  gather_S50000x128_S1000000x1_S1000000x128_1_0_n_n_0_1_1128_wf : GatherDims.WF S50000x128 S1000000x1 S1000000x128 [1] [0] [] [0] [] 1 ![1, 128]
  gather_S256_S1000000x1_S1000000_n_0_n_n_0_1_1_wf : GatherDims.WF S256 S1000000x1 S1000000 [] [0] [] [0] [] 1 ![1]
  gather_S500x128_S1000000x1_S1000000x128_1_0_n_n_0_1_1128_wf : GatherDims.WF S500x128 S1000000x1 S1000000x128 [1] [0] [] [0] [] 1 ![1, 128]
  scatter_S256_S1000000x1_S1000000_n_0_0_1_wf : ScatterDims.WF S256 S1000000x1 S1000000 [] [0] [0] 1

variable [Facts₀]

def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def gather_S256_S1000000x1_S1000000_n_0_n_n_0_1_1 : GatherDims S256 S1000000x1 S1000000 where
  offsetDims := []
  collapsedSliceDims := [0]
  operandBatchingDims := []
  startIndicesBatchingDims := []
  startIndexMap := [0]
  indexVectorDim := 1
  sliceSizes := ![1]
  wf := gather_S256_S1000000x1_S1000000_n_0_n_n_0_1_1_wf
def gather_S500x128_S1000000x1_S1000000x128_1_0_n_n_0_1_1128 : GatherDims S500x128 S1000000x1 S1000000x128 where
  offsetDims := [1]
  collapsedSliceDims := [0]
  operandBatchingDims := []
  startIndicesBatchingDims := []
  startIndexMap := [0]
  indexVectorDim := 1
  sliceSizes := ![1, 128]
  wf := gather_S500x128_S1000000x1_S1000000x128_1_0_n_n_0_1_1128_wf
def scatter_S256_S1000000x1_S1000000_n_0_0_1 : ScatterDims S256 S1000000x1 S1000000 where
  updateWindowDims := []
  insertedWindowDims := [0]
  scatterDimsToOperandDims := [0]
  indexVectorDim := 1
  wf := scatter_S256_S1000000x1_S1000000_n_0_0_1_wf

class Facts : Prop extends Facts₀ where

variable [Facts]
-- ==== Proof.LibGatherScatter.lean ====
import Idealize.ShloMosaic.PureOps.Ideal
import Idealize.ShloMosaic.Lib.ValueIdx
import Idealize.ShloMosaic.Lib.ValueIdxRank1
import Mathlib.Algebra.BigOperators.Group.Finset.Basic

/-!
# Row gathers and segment scatters, read at an index

`table[ids]` for a table of `N` rows of length `C` and `n` ids lowers to a gather whose start indices are the
ids as an `[n, 1]` array: result row `t` is the table's row at the id, read as a signed integer and clamped into
`[0, N - 1]`. A segment sum (`segment_sum(v, ids, K)`) lowers to a scatter-add of the `n` updates into `K`
zeros at the ids as an `[n, 1]` array: update `t` lands on element `s` exactly when the id, read signed and NOT
clamped, is `s`; an id outside `[0, K)` lands nowhere.
-/

noncomputable section

open scoped BigOperators
open Idealize.ShloMosaic Idealize.ShloMosaic.ValueIdx

namespace Cert.Lib

/-- The row a start word selects among `N` rows: the word read as a signed integer, clamped into `[0, N - 1]`. -/
def clampRow (N : Nat) (hN : 0 < N) (w : BitVec 32) : Fin N := ⟨min w.toInt.toNat (N - 1), by omega⟩

/-- A negative index counted from the end: `w + n` when `w < 0` (signed), else `w`. -/
def normIdx (n w : BitVec 32) : BitVec 32 := Scalar.select (IntOp.cmpi .slt w 0#32) (IntOp.addi w n) w

/-- The dimension numbers of a row gather: operand `[N, C]`, start indices `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, k)`: the operand's row at the clamped start word, place `k`. -/
theorem gather_rows_apply {α : Type} {N C n : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (t : Fin n) (k : Fin C) :
    Host.gather (rowGatherDims N C n wf) x idx (ix2 t k) = x (ix2 (clampRow N hN (idx (ix2 t 0))) k) := by
  unfold Host.gather
  congr 1
  -- axis 0 is collapsed and start-indexed: the clamped start word, no batching and no offset coordinate
  have h0 : (rowGatherDims N C n wf).start (ix2 t k) idx (0 : Fin 2) + (rowGatherDims N C n wf).batchCoord (ix2 t k) (0 : Fin 2)
      + (rowGatherDims N C n wf).offCoord (ix2 t k) (0 : Fin 2) = (clampRow N hN (idx (ix2 t 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 t k) ⟨List.idxOf (0 : Fin 2) (rowGatherDims N C n wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  -- axis 1 is kept and not start-indexed: start 0, and the offset coordinate is the result's second coordinate
  have h1 : (rowGatherDims N C n wf).start (ix2 t k) idx (1 : Fin 2) + (rowGatherDims N C n wf).batchCoord (ix2 t k) (1 : Fin 2)
      + (rowGatherDims N C n wf).offCoord (ix2 t k) (1 : Fin 2) = k.val := by
    rw [GatherDims.batchCoord_eq_zero _ _ _ List.not_mem_nil]
    have hnot : (1 : Fin 2) ∉ (rowGatherDims N C n wf).startIndexMap := by
      show (1 : Fin 2) ∉ ([0] : List (Fin 2))
      decide
    have hk : (1 : Fin 2) ∈ (rowGatherDims N C n wf).sKept := by
      rw [GatherDims.mem_sKept]
      refine ⟨?_, List.not_mem_nil⟩
      show (1 : Fin 2) ∉ ([0] : List (Fin 2))
      decide
    unfold GatherDims.start
    rw [dif_neg hnot]
    simp only [Nat.zero_add, Nat.add_zero]
    unfold GatherDims.offCoord
    rw [dif_pos hk]
    rfl
  funext a
  refine Fin.ext ?_
  match a with
  | ⟨0, _⟩ => exact h0
  | ⟨1, _⟩ => exact h1

/-- The dimension numbers of an element gather from a flat table: operand `[N]`, start indices `[n, 1]`, result `[n]`. -/
abbrev eltGatherDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- THE ELEMENT GATHER READ AT `t`: the table at the clamped start word. -/
theorem gather_elts_apply {α : Type} {N n : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ 32) (t : Fin n) :
    Host.gather (eltGatherDims N n wf) x idx (ix1 t) = x (ix1 (clampRow N hN (idx (ix2 t 0)))) := by
  unfold Host.gather
  congr 1
  funext a
  obtain rfl : a = 0 := Subsingleton.elim _ _
  refine Fin.ext ?_
  show (eltGatherDims N n wf).start (ix1 t) idx 0 + (eltGatherDims N n wf).batchCoord (ix1 t) 0
    + (eltGatherDims N n wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N n wf).startIndexMap from List.mem_singleton.mpr rfl)]
  have hsi : (eltGatherDims N n wf).siIdx (ix1 t) ⟨List.idxOf (0 : Fin 1) (eltGatherDims N n wf).startIndexMap,
      List.idxOf_lt_length_iff.2 (List.mem_singleton.mpr rfl)⟩ = ix2 t 0 := by
    funext b; refine Fin.ext ?_
    match b with
    | ⟨0, _⟩ => rfl
    | ⟨1, _⟩ => rfl
  rw [hsi]
  rfl

/-- The dimension numbers of a segment scatter: operand `[K]`, scatter indices `[n, 1]`, updates `[n]`. -/
abbrev segScatterDims (K n : Nat) (wf : ScatterDims.WF ⟨1, ![K]⟩ ⟨2, ![n, 1]⟩ ⟨1, ![n]⟩ [] [0] [0] 1) :
    ScatterDims ⟨1, ![K]⟩ ⟨2, ![n, 1]⟩ ⟨1, ![n]⟩ where
  updateWindowDims := []
  insertedWindowDims := [0]
  scatterDimsToOperandDims := [0]
  indexVectorDim := 1
  wf := wf

/-- Update `t` of a segment scatter lands on element `s` exactly when its index word, read signed, is `s`. -/
theorem segScatter_resultIdx_iff {K n : Nat} (wf : ScatterDims.WF ⟨1, ![K]⟩ ⟨2, ![n, 1]⟩ ⟨1, ![n]⟩ [] [0] [0] 1)
    (idx : IVec ⟨2, ![n, 1]⟩ 32) (t : Fin n) (s : Fin K) :
    (segScatterDims K n wf).resultIdx? (ix1 t) idx = some (ix1 s) ↔ (idx (ix2 t 0)).toInt = (s.val : Int) := by
  -- on the operand's one axis the start is the index word read signed, and the window coordinate is 0 (the axis is inserted)
  have hstart : (segScatterDims K n wf).start (ix1 t) idx (0 : Fin 1) = (idx (ix2 t 0)).toInt := by
    unfold ScatterDims.start
    rw [dif_pos (show (0 : Fin 1) ∈ (segScatterDims K n wf).scatterDimsToOperandDims from List.mem_singleton.mpr rfl)]
    have hsi : (segScatterDims K n wf).siIdx (ix1 t) ⟨List.idxOf (0 : Fin 1) (segScatterDims K n wf).scatterDimsToOperandDims,
        List.idxOf_lt_length_iff.2 (List.mem_singleton.mpr rfl)⟩ = ix2 t 0 := by
      funext b; refine Fin.ext ?_
      match b with
      | ⟨0, _⟩ => rfl
      | ⟨1, _⟩ => rfl
    rw [hsi]
  have hwin : (segScatterDims K n wf).window (ix1 t) (0 : Fin 1) = 0 := by
    unfold ScatterDims.window
    rw [dif_neg]
    show (0 : Fin 1) ∉ (⟨1, ![K]⟩ : Shape).kept [0]
    simp [Shape.kept]
  have hsz : (⟨1, ![K]⟩ : Shape).size (0 : Fin 1) = K := rfl
  have hs := s.isLt
  unfold ScatterDims.resultIdx?
  constructor
  · intro h
    split at h
    · rename_i hin
      have h2 := congrArg Fin.val (congrFun (Option.some.inj h) (0 : Fin 1))
      have h3 := (hin 0).1
      rw [hstart, hwin] at h3
      change ((segScatterDims K n wf).start (ix1 t) idx 0 + ((segScatterDims K n wf).window (ix1 t) 0 : Nat)).toNat = s.val at h2
      rw [hstart, hwin] at h2
      omega
    · exact absurd h (by simp)
  · intro hv
    have hin : ∀ a, 0 ≤ (segScatterDims K n wf).start (ix1 t) idx a + ((segScatterDims K n wf).window (ix1 t) a : Nat)
        ∧ (segScatterDims K n wf).start (ix1 t) idx a + ((segScatterDims K n wf).window (ix1 t) a : Nat)
          < ((⟨1, ![K]⟩ : Shape).size a : Nat) := by
      intro a
      obtain rfl : a = 0 := Subsingleton.elim _ _
      rw [hstart, hwin, hv, hsz]
      omega
    rw [dif_pos hin]
    congr 1
    funext a
    obtain rfl : a = 0 := Subsingleton.elim _ _
    refine Fin.ext ?_
    show ((segScatterDims K n wf).start (ix1 t) idx 0 + ((segScatterDims K n wf).window (ix1 t) 0 : Nat)).toNat = s.val
    rw [hstart, hwin, hv]
    simp

/-- A signed 32-bit word is the small natural `s` exactly when it is the word of `s`. -/
theorem toInt_eq_iff_eq_ofNat (w : BitVec 32) (s : Nat) (hs : s < 2 ^ 31) :
    w.toInt = (s : Int) ↔ w = BitVec.ofNat 32 s := by
  constructor
  · intro h
    have h2 := congrArg (BitVec.ofInt 32) h
    rwa [BitVec.ofInt_toInt, BitVec.ofInt_natCast] at h2
  · rintro rfl
    rw [BitVec.toInt_eq_toNat_cond, BitVec.toNat_ofNat]
    have hmod : s % 2 ^ 32 = s := Nat.mod_eq_of_lt (by omega)
    rw [hmod, if_pos (by omega)]

/-- THE SEGMENT SCATTER-ADD READ AT `s` (at the ideal instance): the operand's element plus the sum of the updates
    whose index word is the word of `s`. -/
theorem hostScatterAdd_seg_apply {K n : Nat} (hK : K ≤ 2 ^ 31)
    (wf : ScatterDims.WF ⟨1, ![K]⟩ ⟨2, ![n, 1]⟩ ⟨1, ![n]⟩ [] [0] [0] 1)
    (x : (⟨1, ![K]⟩ : Shape).Idx → EReal) (idx : IVec ⟨2, ![n, 1]⟩ 32) (upd : (⟨1, ![n]⟩ : Shape).Idx → EReal)
    (s : Fin K) :
    Ideal.hostScatterAdd (segScatterDims K n wf) x idx upd (ix1 s)
      = x (ix1 s) + ∑ t ∈ Finset.univ.filter (fun t : Fin n => idx (ix2 t 0) = BitVec.ofNat 32 s.val), upd (ix1 t) := by
  unfold Ideal.hostScatterAdd
  congr 1
  -- re-index the updates' rank-1 indices by their coordinate; an update lands on `s` iff its word is the word of `s`
  refine Finset.sum_equiv idxEquiv1 ?_ ?_
  · intro j
    obtain ⟨t, rfl⟩ : ∃ t : Fin n, j = ix1 t := ⟨j 0, eq_ix1 j⟩
    simp only [Finset.mem_filter, Finset.mem_univ, true_and]
    show _ ↔ idx (ix2 t 0) = BitVec.ofNat 32 s.val
    rw [segScatter_resultIdx_iff, toInt_eq_iff_eq_ofNat _ _ (by have := s.isLt; omega)]
  · intro j _
    obtain ⟨t, rfl⟩ : ∃ t : Fin n, j = ix1 t := ⟨j 0, eq_ix1 j⟩
    rfl

end Cert.Lib

end
-- ==== Proof.SegmentSpec.lean ====
import Idealize.ShloMosaic.PureOps.Ideal
import Idealize.ShloMosaic.Lib.ValueIdx
import Mathlib.Algebra.BigOperators.Group.Finset.Basic

/-!
# Per-segment mean of TransE scores: the two arrangements

A triple `t` has a head row `h t`, a tail row `t' t` (both of length 128) and a segment word `seg t`;
segment `s` (one of 256) has a relation row `r s`. The score of a triple is `-‖h + r - t'‖²`, and the
result at segment `s` is the mean of the scores of the triples whose segment word is `s` (zero for an empty
segment).

*Direct arrangement.* Sum the scores of the triples of the segment, count them, divide.

*Expanded arrangement.* With `a = h - t'`, `‖a + r‖² = ‖a‖² + 2 a·r + ‖r‖²`, so the segment's sum needs only
three per-segment accumulations: `∑ a` (a row), the count, and `∑ ‖a‖²`. They are accumulated as ONE product
of the one-hot segment matrix (triples × segments, transposed) with a matrix whose row `t` is `a t` followed by
an auxiliary row holding `1`, `‖a t‖²` and a residual `‖a t‖² - ‖a t‖²` in its first three places; the triples
are cut into 250 consecutive runs of 4000, the first 125 runs accumulated into one partial result and the last 125
into another, and the two partial results added.

This file only DEFINES the two arrangements, over plain functions; their equality on real data is proved elsewhere.
-/

noncomputable section

open scoped BigOperators
open Idealize.ShloMosaic

namespace Cert.Seg

/-- Triple `t` belongs to segment `s`: its segment word is the 32-bit word of `s`. -/
def InSeg (seg : Fin 1000000 → BitVec 32) (s : Fin 256) (t : Fin 1000000) : Prop :=
  seg t = BitVec.ofNat 32 s.val

instance (seg : Fin 1000000 → BitVec 32) (s : Fin 256) : DecidablePred (InSeg seg s) :=
  fun t => inferInstanceAs (Decidable (seg t = BitVec.ofNat 32 s.val))

/-- The common closing of both arrangements: `num / max cnt 1` where `cnt > 0`, else `0`. -/
def closeMean (cnt num : EReal) : EReal :=
  Scalar.select (FloatOps.cmpf (F := Ideal) (φ := .f32) .ogt cnt (Ideal.ofBits .f32 0x00000000#32))
    (FloatOps.hostDivf (F := Ideal) (φ := .f32) num (FloatOps.maximumf (F := Ideal) (φ := .f32) cnt (Ideal.ofBits .f32 0x3F800000#32)))
    (Ideal.ofBits .f32 0x00000000#32)

/-! ## The direct arrangement -/

/-- The number of triples of segment `s`, as the sum of a one per triple onto zero. -/
def refCnt (seg : Fin 1000000 → BitVec 32) (s : Fin 256) : EReal :=
  0 + ∑ t ∈ Finset.univ.filter (InSeg seg s), (1 : EReal)

/-- The sum over the triples of segment `s` of `-‖(h + rt) - t'‖²`, `rt t` being the relation row the
    triple itself looks up. -/
def refNum (h t' rt : Fin 1000000 → Fin 128 → EReal) (seg : Fin 1000000 → BitVec 32) (s : Fin 256) : EReal :=
  0 + ∑ t ∈ Finset.univ.filter (InSeg seg s),
    -(0 + ∑ d : Fin 128, ((h t d + rt t d) - t' t d) * ((h t d + rt t d) - t' t d))

/-! ## The expanded arrangement -/

/-- One-hot: `1` where the word is segment `s`'s, else `0`. -/
def onehot (w : BitVec 32) (s : Fin 256) : EReal := if w = BitVec.ofNat 32 s.val then 1 else 0

/-- `1` at place `c` of a row of 128, else `0`. -/
def sel (c : Nat) (j : Fin 128) : EReal := if j.val = c then 1 else 0

/-- The squared length of a row. -/
def sq (x : Fin 128 → EReal) : EReal := ∑ d : Fin 128, x d * x d

/-- The auxiliary row of a triple: `1`, the squared length, and the residual of the squared length against
    itself, in places 0, 1, 2. -/
def auxRow (x : Fin 128 → EReal) (j : Fin 128) : EReal :=
  (1 * sel 0 j + sq x * sel 1 j) + (sq x - sq x) * sel 2 j

/-- The row of length 256 a triple contributes: its difference row, then its auxiliary row. -/
def rhsRow (x : Fin 128 → EReal) (j : Fin 256) : EReal :=
  if hj : j.val < 128 then x ⟨j.val, hj⟩ else auxRow x ⟨j.val - 128, by omega⟩

/-- The one-hot product over run `n` (triples `4000 n … 4000 n + 3999`), entry `(s, j)`. The arrays are
    taken over all naturals (whatever they hold past the last triple is never used). -/
def pointSum (a : Nat → Fin 128 → EReal) (seg : Nat → BitVec 32) (n : Nat) (s j : Fin 256) : EReal :=
  ∑ k : Fin 4000, onehot (seg (4000 * n + k.val)) s * rhsRow (a (4000 * n + k.val)) j

/-- One partial result: runs `125 c … 125 c + 124` accumulated onto zero. -/
def blockSum (a : Nat → Fin 128 → EReal) (seg : Nat → BitVec 32) (c : Nat) (s j : Fin 256) : EReal :=
  0 + ∑ i ∈ Finset.range 125, pointSum a seg (125 * c + i) s j

/-- The two partial results added. -/
def merged (a : Nat → Fin 128 → EReal) (seg : Nat → BitVec 32) (s j : Fin 256) : EReal :=
  blockSum a seg 0 s j + blockSum a seg 1 s j

/-- The count in the expanded arrangement: column 128 of the merged product. -/
def kerCnt (a : Nat → Fin 128 → EReal) (seg : Nat → BitVec 32) (s : Fin 256) : EReal :=
  merged a seg s ⟨128, by omega⟩

/-- The segment's sum in the expanded arrangement:
    `-((∑‖a‖² + residuals) + 2 (∑ a)·r + count · ‖r‖²)`. -/
def kerNum (a : Nat → Fin 128 → EReal) (r : Fin 256 → Fin 128 → EReal) (seg : Nat → BitVec 32) (s : Fin 256) : EReal :=
  -(((merged a seg s ⟨129, by omega⟩ + merged a seg s ⟨130, by omega⟩)
      + 2 * (0 + ∑ d : Fin 128, merged a seg s ⟨d.val, by omega⟩ * r s d))
    + merged a seg s ⟨128, by omega⟩ * (0 + ∑ d : Fin 128, r s d * r s d))

/-- An array over the triples, read at any natural (zero past the last triple). -/
def extRow (a : Fin 1000000 → Fin 128 → EReal) (t : Nat) : Fin 128 → EReal :=
  if h : t < 1000000 then a ⟨t, h⟩ else fun _ => 0

/-- The segment words, read at any natural (the zero word past the last triple). -/
def extSeg (seg : Fin 1000000 → BitVec 32) (t : Nat) : BitVec 32 :=
  if h : t < 1000000 then seg ⟨t, h⟩ else 0

end Cert.Seg

end
-- ==== Proof.Rows.lean ====
import proofs.«404307_j64750926954631_3_alg».proof.Proof.LibGatherScatter
import proofs.«404307_j64750926954631_3_alg».proof.Proof.SegmentSpec

/-!
# The rows the two arrangements are fed

Both programs look rows up the same way: an index word is first counted from the end when negative, then read signed
and clamped into the table. `takeRow` is that row at a place; the head and tail rows of a triple, the relation row
of a segment, and the relation row a triple looks up through its own segment word are all instances.
-/

noncomputable section

open Idealize.ShloMosaic Idealize.ShloMosaic.ValueIdx Cert.Lib

namespace Cert.Seg

/-- Place `k` of the row of `x` (a table of `N` rows) that the index word `w` selects, `n` being the word of `N`. -/
def takeRow {N C : Nat} (hN : 0 < N) (n : BitVec 32) (x : (⟨2, ![N, C]⟩ : Shape).Idx → EReal) (w : BitVec 32)
    (k : Fin C) : EReal :=
  x (ix2 (clampRow N hN (normIdx n w)) k)

/-- The row of the entity table (50000 rows) that triple `t`'s id selects. -/
def entRow (E : (⟨2, ![50000, 128]⟩ : Shape).Idx → EReal) (ids : (⟨1, ![1000000]⟩ : Shape).Idx → BitVec 32)
    (t : Fin 1000000) (d : Fin 128) : EReal :=
  takeRow (by decide) 50000#32 E (ids (ix1 t)) d

/-- The relation row of segment `s`: the relation table (500 rows) at the segment's label. -/
def relRow (R : (⟨2, ![500, 128]⟩ : Shape).Idx → EReal) (lab : (⟨1, ![256]⟩ : Shape).Idx → BitVec 32)
    (s : Fin 256) (d : Fin 128) : EReal :=
  takeRow (by decide) 500#32 R (lab (ix1 s)) d

/-- The relation row triple `t` looks up itself: the label table at its segment word (counted from the end when
    negative, clamped into the 256 labels), then the relation table at that label. -/
def relRowOfTriple (R : (⟨2, ![500, 128]⟩ : Shape).Idx → EReal) (lab : (⟨1, ![256]⟩ : Shape).Idx → BitVec 32)
    (seg : (⟨1, ![1000000]⟩ : Shape).Idx → BitVec 32) (t : Fin 1000000) (d : Fin 128) : EReal :=
  takeRow (by decide) 500#32 R (lab (ix1 (clampRow 256 (by decide) (normIdx 256#32 (seg (ix1 t)))))) d

/-- The segment words as a function of the triple's number. -/
def segOf (seg : (⟨1, ![1000000]⟩ : Shape).Idx → BitVec 32) (t : Fin 1000000) : BitVec 32 := seg (ix1 t)

/-- A triple of segment `s` looks up segment `s`'s relation row. -/
theorem relRowOfTriple_of_inSeg (R : (⟨2, ![500, 128]⟩ : Shape).Idx → EReal) (lab : (⟨1, ![256]⟩ : Shape).Idx → BitVec 32)
    (seg : (⟨1, ![1000000]⟩ : Shape).Idx → BitVec 32) (s : Fin 256) (t : Fin 1000000) (h : InSeg (segOf seg) s t) :
    relRowOfTriple R lab seg t = relRow R lab s := by
  have hs := s.isLt
  -- the segment word of the triple is the word of `s`
  have hw : seg (ix1 t) = BitVec.ofNat 32 s.val := h
  -- read as a signed integer, the word of `s` is `s`
  have hint : (BitVec.ofNat 32 s.val).toInt = (s.val : Int) :=
    (toInt_eq_iff_eq_ofNat _ _ (by omega)).mpr rfl
  -- it is not negative, so it is not counted from the end
  have hslt : (BitVec.ofNat 32 s.val).slt 0#32 = false := by
    rw [BitVec.slt, hint]
    simp
  have hnorm : normIdx 256#32 (BitVec.ofNat 32 s.val) = BitVec.ofNat 32 s.val := by
    simp [normIdx, IntOp.cmpi, Scalar.select, hslt]
  -- and it is below 256, so clamping into the 256 labels keeps it
  have hclamp : clampRow 256 (by decide) (BitVec.ofNat 32 s.val) = s := by
    refine Fin.ext ?_
    show min (BitVec.ofNat 32 s.val).toInt.toNat (256 - 1) = s.val
    rw [hint]
    omega
  funext d
  unfold relRowOfTriple relRow
  rw [hw, hnorm, hclamp]

end Cert.Seg

end
-- ==== Proof.KernelHost.lean ====
import proofs.«404307_j64750926954631_3_alg».proof.Proof.Gen.KernelIdeal.Frame
import proofs.«404307_j64750926954631_3_alg».proof.Proof.Rows
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

/-!
# The kernel program's host operations, before and after the region

Before the region the program gathers the head and tail rows of every triple and subtracts them (the difference
array the region streams), reshapes the segment words into a column, and gathers the 256 relation rows. After the
region it adds the two partial results, cuts the merged 256 × 256 array into the summed difference rows, the count
column and the two squared-length columns, and closes with the expanded formula and the mean.
-/

noncomputable section

open scoped BigOperators
open Idealize.ShloMosaic Idealize.ShloMosaic.ValueIdx Idealize.ShloMosaic.TcCoe Idealize.SL.Sem Cert.Seg Cert.Lib

namespace Cert.KernelIdeal.HostValue

open Cert.KernelIdeal Cert.KernelIdeal.Gen

variable (m : (ℓ : Loc nD τ sig) → Buf (Elt Ideal) ℓ)

/-! ## Before the region: the gathers' start words and rows -/

/-- The start words of the entity gather for an id array: each id counted from the end when negative, as a column. -/
private def entStarts (ids : IVec S1000000 32) : IVec S1000000x1 32 :=
  broadcastInDim S1000000x1 ![0] bcast_S1000000_S1000000x1_0
    (select (cmpi .slt ids (broadcastInDim S1000000 ![] bcast_S_S1000000 (constantI S_ 32 0#32)))
      (addi ids (broadcastInDim S1000000 ![] bcast_S_S1000000 (constantI S_ 32 50000#32)))
      ids)

/-- Start word `t` is id `t`, plus 50000 when it is negative. -/
private theorem entStarts_apply (ids : IVec S1000000 32) (t : Fin 1000000) :
    entStarts ids (ix2 t (0 : Fin 1)) = normIdx 50000#32 (ids (ix1 t)) := by
  unfold entStarts
  refine (broadcastInDim_apply (s := S1000000) (t := S1000000x1) _ bcast_S1000000_S1000000x1_0 _ (ix2 t (0 : Fin 1)) (ix1 t) (fun a => ?_)).trans ?_
  · match a with
    | ⟨0, _⟩ => show t.val = if (1000000 : Nat) = 1 then 0 else t.val; rw [if_neg (by decide)]
  · rfl

/-- The entity rows gathered for an id array. -/
private def entRows (E : S50000x128.Idx → EReal) (ids : IVec S1000000 32) : S1000000x128.Idx → EReal :=
  Host.gather gather_S50000x128_S1000000x1_S1000000x128_1_0_n_n_0_1_1128 E (entStarts ids)

/-- Gathered row `t` is the entity table's row at id `t`, counted from the end when negative and clamped. -/
private theorem entRows_apply (E : S50000x128.Idx → EReal) (ids : IVec S1000000 32) (t : Fin 1000000) (d : Fin 128) :
    entRows E ids (ix2 t d) = entRow E ids t d := by
  unfold entRows entRow takeRow
  refine (gather_rows_apply (N := 50000) (C := 128) (n := 1000000) (by decide)
    gather_S50000x128_S1000000x1_S1000000x128_1_0_n_n_0_1_1128_wf E (entStarts ids) t d).trans ?_
  rw [entStarts_apply]

set_option maxHeartbeats 4000000 in
/-- The difference array as the operations compute it: the rows gathered at the head ids minus those at the tail ids. -/
private theorem V_v14 (c : Dev nD) :
    (V m c main_v14 : S1000000x128.Idx → EReal)
      = subf (F := Ideal) (φ := .f32)
          (entRows (m ((c : Thread nD τ).loc main_arg0)) (m ((c : Thread nD τ).loc main_arg2)))
          (entRows (m ((c : Thread nD τ).loc main_arg0)) (m ((c : Thread nD τ).loc main_arg3))) := by
  show StableHlo.after hostOps0 (fun b => m (c, b)) (Proc.devRef .tc main_v14) = _
  unfold entRows entStarts
  after_results_simp

/-- The difference array the region streams: row `t` is the head row minus the tail row of triple `t`. -/
theorem V_diff (c : Dev nD) (t : Fin 1000000) (d : Fin 128) :
    (V m c main_v14 : S1000000x128.Idx → EReal) (ix2 t d)
      = entRow (m ((c : Thread nD τ).loc main_arg0)) (m ((c : Thread nD τ).loc main_arg2)) t d
        - entRow (m ((c : Thread nD τ).loc main_arg0)) (m ((c : Thread nD τ).loc main_arg3)) t d := by
  rw [V_v14, ← entRows_apply, ← entRows_apply]
  rfl

/-- The segment column as the operations compute it: the segment words viewed as one column. -/
private theorem V_v22 (c : Dev nD) :
    (V m c main_v22 : S1000000x1.Idx → BitVec 32)
      = shapeCast S1000000x1 (m ((c : Thread nD τ).loc main_arg4) : S1000000.Idx → BitVec 32) shapeCasts_S1000000_S1000000x1 := by
  show StableHlo.after hostOps0 (fun b => m (c, b)) (Proc.devRef .tc main_v22) = _
  after_results
  rfl

/-- The column of segment words the region streams. -/
theorem V_seg (c : Dev nD) (t : Fin 1000000) :
    (V m c main_v22 : S1000000x1.Idx → BitVec 32) (ix2 t (0 : Fin 1)) = m ((c : Thread nD τ).loc main_arg4) (ix1 t) := by
  rw [V_v22]
  refine shapeCast_apply (s := S1000000) (t := S1000000x1) _ shapeCasts_S1000000_S1000000x1 (ix2 t (0 : Fin 1)) (ix1 t) ?_
  rw [Shape.rowMajor_val_one, Shape.rowMajor_val_two]
  show t.val = t.val * 1 + 0
  omega

/-- The start words of the relation gather: each label counted from the end when negative, as a column. -/
private def relStarts (lab : IVec S256 32) : IVec S256x1 32 :=
  broadcastInDim S256x1 ![0] bcast_S256_S256x1_0
    (select (cmpi .slt lab (broadcastInDim S256 ![] bcast_S_S256 (constantI S_ 32 0#32)))
      (addi lab (broadcastInDim S256 ![] bcast_S_S256 (constantI S_ 32 500#32)))
      lab)

/-- Start word `s` is label `s`, plus 500 when it is negative. -/
private theorem relStarts_apply (lab : IVec S256 32) (s : Fin 256) :
    relStarts lab (ix2 s (0 : Fin 1)) = normIdx 500#32 (lab (ix1 s)) := by
  unfold relStarts
  refine (broadcastInDim_apply (s := S256) (t := S256x1) _ bcast_S256_S256x1_0 _ (ix2 s (0 : Fin 1)) (ix1 s) (fun a => ?_)).trans ?_
  · match a with
    | ⟨0, _⟩ => show s.val = if (256 : Nat) = 1 then 0 else s.val; rw [if_neg (by decide)]
  · rfl

/-- The relation rows gathered at the labels. -/
private def relRows (R : S500x128.Idx → EReal) (lab : IVec S256 32) : S256x128.Idx → EReal :=
  Host.gather gather_S500x128_S256x1_S256x128_1_0_n_n_0_1_1128 R (relStarts lab)

/-- Gathered row `s` is segment `s`'s relation row. -/
private theorem relRows_apply (R : S500x128.Idx → EReal) (lab : IVec S256 32) (s : Fin 256) (d : Fin 128) :
    relRows R lab (ix2 s d) = relRow R lab s d := by
  unfold relRows relRow takeRow
  refine (gather_rows_apply (N := 500) (C := 128) (n := 256) (by decide)
    gather_S500x128_S256x1_S256x128_1_0_n_n_0_1_1128_wf R (relStarts lab) s d).trans ?_
  rw [relStarts_apply]

set_option maxHeartbeats 4000000 in
/-- The relation-row array as the operations compute it. -/
private theorem V_v21 (c : Dev nD) :
    (V m c main_v21 : S256x128.Idx → EReal)
      = relRows (m ((c : Thread nD τ).loc main_arg1)) (m ((c : Thread nD τ).loc main_arg5)) := by
  show StableHlo.after hostOps0 (fun b => m (c, b)) (Proc.devRef .tc main_v21) = _
  unfold relRows relStarts
  after_results_simp

/-! ## After the region -/

/-- Entry `(s, j)` of the two partial results added, for an output array `G` of two 256 × 256 planes. -/
def mergedOf (G : S2x256x256.Idx → EReal) (s j : Fin 256) : EReal :=
  G (ix3 (0 : Fin 2) s j) + G (ix3 (1 : Fin 2) s j)

/-- The two planes of the output array added, as a 256 × 256 array. -/
private def mergedArr (G : S2x256x256.Idx → EReal) : S256x256.Idx → EReal :=
  addf (F := Ideal) (φ := .f32)
    (shapeCast S256x256 (extractStridedSlice S1x256x256 ![0, 0, 0] G slices_S2x256x256_S1x256x256_0_0_0) shapeCasts_S1x256x256_S256x256)
    (shapeCast S256x256 (extractStridedSlice S1x256x256 ![1, 0, 0] G slices_S2x256x256_S1x256x256_1_0_0) shapeCasts_S1x256x256_S256x256)

/-- Columns 0 … 127 of a 256 × 256 array. -/
private def leadCols (M : S256x256.Idx → EReal) : S256x128.Idx → EReal :=
  extractStridedSlice S256x128 ![0, 0] M slices_S256x256_S256x128_0_0

/-- Column 128 of a 256 × 256 array, as a vector. -/
private def col128 (M : S256x256.Idx → EReal) : S256.Idx → EReal :=
  shapeCast S256 (extractStridedSlice S256x1 ![0, 128] M slices_S256x256_S256x1_0_128) shapeCasts_S256x1_S256
/-- Column 129. -/
private def col129 (M : S256x256.Idx → EReal) : S256.Idx → EReal :=
  shapeCast S256 (extractStridedSlice S256x1 ![0, 129] M slices_S256x256_S256x1_0_129) shapeCasts_S256x1_S256
/-- Column 130. -/
private def col130 (M : S256x256.Idx → EReal) : S256.Idx → EReal :=
  shapeCast S256 (extractStridedSlice S256x1 ![0, 130] M slices_S256x256_S256x1_0_130) shapeCasts_S256x1_S256

/-- The sum of each row of a 256 × 128 array onto zero. -/
private def rowSum (X : S256x128.Idx → EReal) : S256.Idx → EReal :=
  Host.reduceAdd (F := Ideal) (φ := .f32) X (constant (F := Ideal) S_ .f32 0x00000000#32) reducesTo_S256x128_S256_d1 h_S_

/-- The operations after the region, composed: from the output array `G` and the relation rows `R` to the result. -/
private def tailFn (G : S2x256x256.Idx → EReal) (R : S256x128.Idx → EReal) : S256.Idx → EReal :=
  select
    (cmpf (F := Ideal) (φ := .f32) .ogt (col128 (mergedArr G)) (broadcastInDim S256 ![] bcast_S_S256 (constant (F := Ideal) S_ .f32 0x00000000#32)))
    (Host.divf (F := Ideal) (φ := .f32)
      (Host.negf (F := Ideal) (φ := .f32)
        (addf (F := Ideal) (φ := .f32)
          (addf (F := Ideal) (φ := .f32)
            (addf (F := Ideal) (φ := .f32) (col129 (mergedArr G)) (col130 (mergedArr G)))
            (mulf (F := Ideal) (φ := .f32) (broadcastInDim S256 ![] bcast_S_S256 (constant (F := Ideal) S_ .f32 0x40000000#32))
              (rowSum (mulf (F := Ideal) (φ := .f32) (leadCols (mergedArr G)) R))))
          (mulf (F := Ideal) (φ := .f32) (col128 (mergedArr G)) (rowSum (mulf (F := Ideal) (φ := .f32) R R)))))
      (maximumf (F := Ideal) (φ := .f32) (col128 (mergedArr G)) (broadcastInDim S256 ![] bcast_S_S256 (constant (F := Ideal) S_ .f32 0x3F800000#32))))
    (broadcastInDim S256 ![] bcast_S_S256 (id (constant (F := Ideal) S_ .f32 0x00000000#32)))

set_option maxHeartbeats 8000000 in
/-- The result buffer after the operations that follow the region, over any contents `W` they start from: the composed
    term of `W`'s output array and of `W`'s relation rows. -/
private theorem tail_term (W : Valuation τ sig (Elt Ideal)) :
    (StableHlo.after (hostOps1 ++ hostOps1_1) W (Proc.devRef .tc main_v52) : S256.Idx → EReal)
      = tailFn (W (Proc.devRef .tc main_v23)) (W (Proc.devRef .tc main_v21)) := by
  unfold tailFn rowSum col128 col129 col130 leadCols mergedArr
  simp only [hostOps1, hostOps1_1, List.cons_append, List.nil_append]
  after_results_simp <;> (try simp only [StableHlo.TRef.ofBuf, StableHlo.TRef.toBuf, cast_eq]) <;> (try rfl)

/-- Plane `p` of the output array, viewed 256 × 256, read at `(s, j)`. -/
private theorem plane_apply (G : S2x256x256.Idx → EReal) (p : Nat) (hp : p < 2) (h : S2x256x256.Slices ![p, 0, 0] S1x256x256)
    (s j : Fin 256) :
    shapeCast S256x256 (extractStridedSlice S1x256x256 ![p, 0, 0] G h) shapeCasts_S1x256x256_S256x256 (ix2 s j)
      = G (ix3 (⟨p, hp⟩ : Fin 2) s j) := by
  refine (shapeCast_apply (s := S1x256x256) (t := S256x256) _ shapeCasts_S1x256x256_S256x256 (ix2 s j) (ix3 (0 : Fin 1) s j) ?_).trans ?_
  · rw [Shape.rowMajor_val_three, Shape.rowMajor_val_two]
    show (0 * 256 + s.val) * 256 + j.val = s.val * 256 + j.val
    omega
  · refine extractStridedSlice_apply (s := S2x256x256) (t := S1x256x256) ![p, 0, 0] G h (ix3 (0 : Fin 1) s j) (ix3 (⟨p, hp⟩ : Fin 2) s j) (fun a => ?_)
    match a with
    | ⟨0, _⟩ => show p = p + 0; omega
    | ⟨1, _⟩ => show s.val = 0 + s.val; omega
    | ⟨2, _⟩ => show j.val = 0 + j.val; omega

/-- The added planes at `(s, j)`. -/
private theorem mergedArr_apply (G : S2x256x256.Idx → EReal) (s j : Fin 256) : mergedArr G (ix2 s j) = mergedOf G s j := by
  unfold mergedArr mergedOf
  show shapeCast S256x256 (extractStridedSlice S1x256x256 ![0, 0, 0] G slices_S2x256x256_S1x256x256_0_0_0) shapeCasts_S1x256x256_S256x256 (ix2 s j)
      + shapeCast S256x256 (extractStridedSlice S1x256x256 ![1, 0, 0] G slices_S2x256x256_S1x256x256_1_0_0) shapeCasts_S1x256x256_S256x256 (ix2 s j) = _
  rw [plane_apply G 0 (by omega), plane_apply G 1 (by omega)]
  rfl

/-- Column `k` of a 256 × 256 array, as a vector, read at `s`. -/
private theorem colAt_apply (M : S256x256.Idx → EReal) (k : Nat) (hk : k < 256) (h : S256x256.Slices ![0, k] S256x1) (s : Fin 256) :
    shapeCast S256 (extractStridedSlice S256x1 ![0, k] M h) shapeCasts_S256x1_S256 (ix1 s) = M (ix2 s (⟨k, hk⟩ : Fin 256)) := by
  refine (shapeCast_apply (s := S256x1) (t := S256) _ shapeCasts_S256x1_S256 (ix1 s) (ix2 s (0 : Fin 1)) ?_).trans ?_
  · rw [Shape.rowMajor_val_two, Shape.rowMajor_val_one]
    show s.val * 1 + 0 = s.val
    omega
  · refine extractStridedSlice_apply (s := S256x256) (t := S256x1) ![0, k] M h (ix2 s (0 : Fin 1)) (ix2 s (⟨k, hk⟩ : Fin 256)) (fun a => ?_)
    match a with
    | ⟨0, _⟩ => show s.val = 0 + s.val; omega
    | ⟨1, _⟩ => show k = k + 0; omega

/-- The leading 128 columns read at `(s, d)`. -/
private theorem leadCols_apply (M : S256x256.Idx → EReal) (s : Fin 256) (d : Fin 128) :
    leadCols M (ix2 s d) = M (ix2 s (⟨d.val, by omega⟩ : Fin 256)) := by
  unfold leadCols
  refine extractStridedSlice_apply (s := S256x256) (t := S256x128) ![0, 0] M slices_S256x256_S256x128_0_0 (ix2 s d) (ix2 s (⟨d.val, by omega⟩ : Fin 256)) (fun a => ?_)
  match a with
  | ⟨0, _⟩ => show s.val = 0 + s.val; omega
  | ⟨1, _⟩ => show d.val = 0 + d.val; omega

/-- A row sum read at `s`: zero plus the sum of the row's 128 entries. -/
private theorem rowSum_apply (X : S256x128.Idx → EReal) (s : Fin 256) : rowSum X (ix1 s) = 0 + ∑ d : Fin 128, X (ix2 s d) := by
  unfold rowSum
  simp only [Host.reduceAdd, Ideal.hostReduceAdd_def]
  rw [Ideal.hostReduceAdd_single reducesTo_S256x128_S256_d1 (by decide)]
  refine congrArg₂ (· + ·) Ideal.ofBits_zero_f32 (Finset.sum_congr rfl fun k _ => ?_)
  exact congrArg X (funext fun a => Fin.ext (by match a with | ⟨0, _⟩ => rfl | ⟨1, _⟩ => rfl))

/-- The `f32` pattern `0x40000000` denotes `2`. -/
private theorem ofBits_f32_two : Ideal.ofBits .f32 0x40000000#32 = 2 := by
  simp [Ideal.ofBits, Ideal.ieee, -EReal.coe_mul]; norm_num
  norm_cast

/-- The composed operations read at segment `s`: the mean's closing over the count column and the negated expanded sum. -/
private theorem tailFn_apply (G : S2x256x256.Idx → EReal) (R : S256x128.Idx → EReal) (s : Fin 256) :
    tailFn G R (ix1 s)
      = closeMean (mergedOf G s ⟨128, by omega⟩)
          (-(((mergedOf G s ⟨129, by omega⟩ + mergedOf G s ⟨130, by omega⟩)
              + 2 * (0 + ∑ d : Fin 128, mergedOf G s ⟨d.val, by omega⟩ * R (ix2 s d)))
            + mergedOf G s ⟨128, by omega⟩ * (0 + ∑ d : Fin 128, R (ix2 s d) * R (ix2 s d)))) := by
  have h128 : col128 (mergedArr G) (ix1 s) = mergedOf G s ⟨128, by omega⟩ :=
    (colAt_apply (mergedArr G) 128 (by omega) slices_S256x256_S256x1_0_128 s).trans (mergedArr_apply G s _)
  have h129 : col129 (mergedArr G) (ix1 s) = mergedOf G s ⟨129, by omega⟩ :=
    (colAt_apply (mergedArr G) 129 (by omega) slices_S256x256_S256x1_0_129 s).trans (mergedArr_apply G s _)
  have h130 : col130 (mergedArr G) (ix1 s) = mergedOf G s ⟨130, by omega⟩ :=
    (colAt_apply (mergedArr G) 130 (by omega) slices_S256x256_S256x1_0_130 s).trans (mergedArr_apply G s _)
  have hdot : rowSum (mulf (F := Ideal) (φ := .f32) (leadCols (mergedArr G)) R) (ix1 s)
      = 0 + ∑ d : Fin 128, mergedOf G s ⟨d.val, by omega⟩ * R (ix2 s d) := by
    rw [rowSum_apply]
    refine congrArg (0 + ·) (Finset.sum_congr rfl fun d _ => ?_)
    show leadCols (mergedArr G) (ix2 s d) * R (ix2 s d) = _
    rw [leadCols_apply, mergedArr_apply]
  have hsq : rowSum (mulf (F := Ideal) (φ := .f32) R R) (ix1 s) = 0 + ∑ d : Fin 128, R (ix2 s d) * R (ix2 s d) := by
    rw [rowSum_apply]
    rfl
  have e : tailFn G R (ix1 s)
      = closeMean (col128 (mergedArr G) (ix1 s))
          (-(((col129 (mergedArr G) (ix1 s) + col130 (mergedArr G) (ix1 s))
              + Ideal.ofBits .f32 0x40000000#32 * rowSum (mulf (F := Ideal) (φ := .f32) (leadCols (mergedArr G)) R) (ix1 s))
            + col128 (mergedArr G) (ix1 s) * rowSum (mulf (F := Ideal) (φ := .f32) R R) (ix1 s))) := rfl
  rw [e, h128, h129, h130, hdot, hsq, ofBits_f32_two]

/-- The program's result at segment `s`, from the region's output array `G` after the run and segment `s`'s relation row. -/
theorem tail_value (c : Dev nD) (G : S2x256x256.Idx → EReal) (hG : (dats m 0 c).arrAt 2 cfg0.N = G) (s : Fin 256) :
    (Pipeline.afterTail₀ cfgs (dats m) 0 (V0 m) [hostOps1, hostOps1_1] c main_v52 : S256.Idx → EReal) (ix1 s)
      = closeMean (mergedOf G s ⟨128, by omega⟩)
          (-(((mergedOf G s ⟨129, by omega⟩ + mergedOf G s ⟨130, by omega⟩)
              + 2 * (0 + ∑ d : Fin 128, mergedOf G s ⟨d.val, by omega⟩
                  * relRow (m ((c : Thread nD τ).loc main_arg1)) (m ((c : Thread nD τ).loc main_arg5)) s d))
            + mergedOf G s ⟨128, by omega⟩
                * (0 + ∑ d : Fin 128, relRow (m ((c : Thread nD τ).loc main_arg1)) (m ((c : Thread nD τ).loc main_arg5)) s d
                    * relRow (m ((c : Thread nD τ).loc main_arg1)) (m ((c : Thread nD τ).loc main_arg5)) s d))) := by
  have hterm : (Pipeline.afterTail₀ cfgs (dats m) 0 (V0 m) [hostOps1, hostOps1_1] c main_v52 : S256.Idx → EReal)
      = tailFn G (relRows (m ((c : Thread nD τ).loc main_arg1)) (m ((c : Thread nD τ).loc main_arg5))) := by
    unfold Pipeline.afterTail₀
    show StableHlo.after (hostOps1 ++ hostOps1_1) _ (Proc.devRef .tc main_v52) = _
    rw [tail_term]
    rw [Pipeline.withArrays_of_ne _ c (V0 m c) _ main_v21 (by exact (by decide : ∀ w, Pipeline.arrRef spec0 w ≠ main_v21))]
    rw [(Pipeline.withArrays_arr spec0 launch0.win.arr_inj c _ _ 2).trans hG]
    exact congrArg (tailFn G) (V_v21 m c)
  rw [hterm, tailFn_apply]
  simp only [relRows_apply]

end Cert.KernelIdeal.HostValue

end
-- ==== Proof.Pieces.lean ====
import proofs.«404307_j64750926954631_3_alg».proof.Proof.Gen.KernelIdeal.Frame
import Idealize.ShloMosaic.Lib.Pipeline.Value

/-!
# What each case of the body leaves behind

The body has three cases by the position in a run of 125 points. At the first point it resets the accumulator to
zero and adds the point's product; at a middle point it adds the product to what the point before left; at the last
point it does the same and copies the accumulator into the output block. Each lemma names what a case leaves in the
accumulator, or in the output block, as the body's pure arithmetic of the point's input blocks (and of what the
accumulator held).
-/

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- The offsets of a whole rank-2 block are zero on both axes. -/
theorem off2_zero : (![0, 0] : Fin 2 → Nat) = fun _ => 0 := by
  funext a; fin_cases a <;> rfl

/-- The offsets of a whole rank-3 block are zero on all three axes. -/
theorem off3_zero : (![0, 0, 0] : Fin 3 → Nat) = fun _ => 0 := by
  funext a; fin_cases a <;> rfl

/-- A middle point leaves in the accumulator what the point before left plus the point's product. -/
theorem sout0_B_0_eq (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x256x256 .f32) (harg4 : arg4.IsWhole) (arg5 : Memref sig .tc .vmem S256x256 .f32) (harg5 : arg5.IsWhole) (hc0 : ¬cond0_0 i) (hc1 : ¬cond0_1 i)
    (x0 : Vec F S4000x128 .f32) (x1 : Vec F S4000x1 .i32) (xs0 : Vec F S256x256 .f32) :
    sout0_B_0 (F := F) c i arg2 harg2 arg3 harg3 arg4 harg4 arg5 harg5 hc0 hc1 x0 x1 xs0 = k0_pay1 (k0_pay6 x1) (k0_pay7 x0) (k0_pay8 (F := F)) (k0_pay9 x0) (k0_pay10 x0) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S256x256) off2_zero]
  simp only [View.readAt_eq_ld, harg2.read_unread, harg3.read_unread, harg5.read_unread, View.ld_unit_zero (S := S4000x128) off2_zero, View.ld_unit_zero (S := S4000x1) off2_zero, View.ld_unit_zero (S := S256x256) off2_zero]

/-- The first point of a run resets the accumulator to zero and then adds the point's product. -/
theorem sout0_A_0_eq (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x256x256 .f32) (harg4 : arg4.IsWhole) (arg5 : Memref sig .tc .vmem S256x256 .f32) (harg5 : arg5.IsWhole) (hc0 : cond0_0 i) (hc1 : ¬cond0_1 i)
    (x0 : Vec F S4000x128 .f32) (x1 : Vec F S4000x1 .i32) :
    sout0_A_0 (F := F) c i arg2 harg2 arg3 harg3 arg4 harg4 arg5 harg5 hc0 hc1 x0 x1 = k0_pay1 (k0_pay6 x1) (k0_pay7 x0) (k0_pay8 (F := F)) (k0_pay9 x0) (k0_pay10 x0) (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S256x256) off2_zero, View.readCov_unit_zero (S := S256x256) _ off2_zero]
  simp only [View.readAt_eq_ld, harg2.read_unread, harg3.read_unread, harg5.read_unread, View.ld_unit_zero (S := S4000x128) off2_zero, View.ld_unit_zero (S := S4000x1) off2_zero, View.ld_unit_zero (S := S256x256) off2_zero]

/-- The last point of a run leaves in the accumulator what the point before left plus the point's product. -/
theorem sout0_C_0_eq (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x256x256 .f32) (harg4 : arg4.IsWhole) (arg5 : Memref sig .tc .vmem S256x256 .f32) (harg5 : arg5.IsWhole) (hc0 : ¬cond0_0 i) (hc1 : cond0_1 i)
    (x0 : Vec F S4000x128 .f32) (x1 : Vec F S4000x1 .i32) (xs0 : Vec F S256x256 .f32) :
    sout0_C_0 (F := F) c i arg2 harg2 arg3 harg3 arg4 harg4 arg5 harg5 hc0 hc1 x0 x1 xs0 = k0_pay1 (k0_pay6 x1) (k0_pay7 x0) (k0_pay8 (F := F)) (k0_pay9 x0) (k0_pay10 x0) xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S256x256) off2_zero]
  simp only [View.readAt_eq_ld, harg2.read_unread, harg3.read_unread, harg5.read_unread, View.ld_unit_zero (S := S4000x128) off2_zero, View.ld_unit_zero (S := S4000x1) off2_zero, View.ld_unit_zero (S := S256x256) off2_zero]

/-- The last point of a run copies the accumulator it has just updated into the output block. -/
theorem out0_C_2_eq (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x256x256 .f32) (harg4 : arg4.IsWhole) (arg5 : Memref sig .tc .vmem S256x256 .f32) (harg5 : arg5.IsWhole) (hc0 : ¬cond0_0 i) (hc1 : cond0_1 i)
    (x0 : Vec F S4000x128 .f32) (x1 : Vec F S4000x1 .i32) (xs0 : Vec F S256x256 .f32) :
    out0_C_2 (F := F) c i arg2 harg2 arg3 harg3 arg4 harg4 arg5 harg5 hc0 hc1 x0 x1 xs0 = k0_pay2 (k0_pay1 (k0_pay6 x1) (k0_pay7 x0) (k0_pay8 (F := F)) (k0_pay9 x0) (k0_pay10 x0) xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x256x256) off3_zero, View.readCov_unit_zero (S := S256x256) _ off2_zero]
  simp only [View.readAt_eq_ld, harg2.read_unread, harg3.read_unread, harg5.read_unread, View.ld_unit_zero (S := S4000x128) off2_zero, View.ld_unit_zero (S := S4000x1) off2_zero, View.ld_unit_zero (S := S256x256) off2_zero]

end Cert.KernelIdeal.Pieces

end
-- ==== Proof.PointValue.lean ====
import proofs.«404307_j64750926954631_3_alg».proof.Proof.Gen.KernelIdeal.Skeleton
import proofs.«404307_j64750926954631_3_alg».proof.Proof.SegmentSpec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

/-!
# What one grid point adds, entry by entry

At a grid point the kernel body holds a block `x0` of 4000 difference rows and the block `x1` of their 4000 segment
words. It forms the one-hot matrix of the words against the 256 segments, the 4000 × 256 matrix whose row `k` is the
difference row followed by the auxiliary row (one, squared length, residual), contracts the two over the 4000
triples, and adds the product to what the accumulator held.
-/

noncomputable section

open scoped BigOperators
open Idealize.ShloMosaic Idealize.ShloMosaic.ValueIdx Cert.Seg

namespace Cert.KernelIdeal.PointValue

open Cert.KernelIdeal Cert.KernelIdeal.Gen

/-! ## Layout readings used below -/

/-- A column of height `a` repeated along `b` columns reads, at `(p, c)`, the column at `p`. -/
private theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Words turned into zeros and ones -/

/-- The float of the widened outcome of an equality test of words: one where they agree, else zero. -/
private theorem float_of_eq_test (u v : BitVec 32) :
    FloatOps.sitofp (F := Ideal) .f32 ((IntOp.cmpi .eq u v).setWidth 32) = if u = v then (1 : EReal) else 0 := by
  by_cases h : u = v
  · rw [if_pos h, StableHlo.Predicate.cmpi_eq_iff.mpr h]
    show (((1#1 : BitVec 1).setWidth 32).toInt : ℝ) = ((1 : ℝ) : EReal)
    norm_num
  · rw [if_neg h, eq_zero_of_ne_one (mt StableHlo.Predicate.cmpi_eq_iff.mp h)]
    show (((0#1 : BitVec 1).setWidth 32).toInt : ℝ) = ((0 : ℝ) : EReal)
    norm_num

/-! ## The operands of the product, entry by entry -/

/-- The one-hot matrix at `(k, s)`: whether triple `k`'s word is segment `s`'s. -/
private theorem pay6_apply (x1 : Vec Ideal S4000x1 .i32) (k : Fin 4000) (s : Fin 256) :
    k0_pay6 (F := Ideal) x1 (ix2 k s) = onehot (x1 (ix2 k 0)) s := by
  unfold k0_pay6
  show FloatOps.sitofp (F := Ideal) .f32 ((IntOp.cmpi .eq
      (broadcastTo S4000x256 (shapeCast S4000x1 x1 shapeCasts_S4000x1_S4000x1) broadcasts_S4000x1_S4000x256 (ix2 k s))
      (broadcastTo S4000x256 (iota .tc S1x256 32 [1] iota_S1x256_d1_w32) broadcasts_S1x256_S4000x256 (ix2 k s))).setWidth 32) = _
  rw [bcast_col, broadcastTo_1b_ab_apply, shapeCast_self, iota_single_apply, float_of_eq_test]
  rfl

/-- The difference rows pass through unchanged. -/
private theorem pay7_apply (x0 : Vec Ideal S4000x128 .f32) (k : Fin 4000) (d : Fin 128) :
    k0_pay7 (F := Ideal) x0 (ix2 k d) = x0 (ix2 k d) := by
  unfold k0_pay7 k0_pay4
  show shapeCast S4000x128 x0 shapeCasts_S4000x128_S4000x128 (ix2 k d) = _
  rw [shapeCast_self]

/-- Putting lane `d` back into row `k` gives the entry `(k, d)`. -/
private theorem lift_lane (k : Fin 4000) (d : Fin 128) :
    reduces_S4000x128_S4000.lift (ix1 k) d = ix2 k d := by
  funext a; apply Fin.ext
  match a with
  | ⟨0, _⟩ => rfl
  | ⟨1, _⟩ => rfl

/-- The lane sum of the squares of row `k` is the squared length of the row. -/
private theorem pay5_apply (x0 : Vec Ideal S4000x128 .f32) (k : Fin 4000) :
    k0_pay5 (F := Ideal) x0 (ix2 k (0 : Fin 1)) = Seg.sq (fun d => x0 (ix2 k d)) := by
  unfold k0_pay5 k0_pay4
  refine (shapeCast_apply _ shapeCasts_S4000_S4000x1 (ix2 k (0 : Fin 1)) (ix1 k) ?_).trans ?_
  · rw [Shape.rowMajor_val_one, Shape.rowMajor_val_two]
    show k.val = k.val * 1 + 0
    omega
  · refine (Ideal.multiReduction_add_single _ 0x00000000#32 reduces_S4000x128_S4000 (.inl rfl) rfl (ix1 k)).trans ?_
    unfold Seg.sq
    show ∑ d : Fin 128, _ = ∑ d : Fin 128, _
    refine Finset.sum_congr rfl fun d _ => ?_
    rw [lift_lane]
    show shapeCast S4000x128 x0 shapeCasts_S4000x128_S4000x128 (ix2 k d)
        * shapeCast S4000x128 x0 shapeCasts_S4000x128_S4000x128 (ix2 k d) = _
    rw [shapeCast_self]

/-- The float of the test "lane `j` is lane `c`": the selector of place `c`. -/
private theorem sel_word (c : ℕ) (hc : c < 128) (j : Fin 128) :
    FloatOps.sitofp (F := Ideal) .f32 ((IntOp.cmpi .eq (BitVec.ofNat 32 j.val) (BitVec.ofNat 32 c)).setWidth 32)
      = sel c j := by
  rw [float_of_eq_test]
  unfold sel
  have e : BitVec.ofNat 32 j.val = BitVec.ofNat 32 c ↔ j.val = c := by
    constructor
    · intro h
      have h' := congrArg BitVec.toNat h
      simp only [BitVec.toNat_ofNat] at h'
      have := j.isLt
      omega
    · intro h; rw [h]
  simp only [e]

/-- The selector row of place 2. -/
private theorem pay8_apply (j : Fin 128) : k0_pay8 (F := Ideal) (ix2 (0 : Fin 1) j) = sel 2 j := by
  unfold k0_pay8
  show FloatOps.sitofp (F := Ideal) .f32 ((IntOp.cmpi .eq
      (iota .tc S1x128 32 [1] iota_S1x128_d1_w32 (ix2 (0 : Fin 1) j)) (BitVec.ofNat 32 2)).setWidth 32) = _
  rw [iota_single_apply]
  exact sel_word 2 (by omega) j

/-- The residual column: the squared length less itself. -/
private theorem pay9_apply (x0 : Vec Ideal S4000x128 .f32) (k : Fin 4000) :
    k0_pay9 (F := Ideal) x0 (ix2 k (0 : Fin 1))
      = Seg.sq (fun d => x0 (ix2 k d)) - Seg.sq (fun d => x0 (ix2 k d)) := by
  unfold k0_pay9
  show k0_pay5 (F := Ideal) x0 (ix2 k (0 : Fin 1)) - k0_pay5 (F := Ideal) x0 (ix2 k (0 : Fin 1)) = _
  rw [pay5_apply]

/-- The bf16 pattern of one denotes one. -/
private theorem bf16_one : Ideal.ofBits .bf16 0x3F80#16 = 1 := by
  simp [Ideal.ofBits, Ideal.ieee, -EReal.coe_mul]; norm_num

/-- The first two places of the auxiliary row: one in place 0, the squared length in place 1. -/
private theorem pay10_apply (x0 : Vec Ideal S4000x128 .f32) (k : Fin 4000) (j : Fin 128) :
    k0_pay10 (F := Ideal) x0 (ix2 k j) = 1 * sel 0 j + Seg.sq (fun d => x0 (ix2 k d)) * sel 1 j := by
  unfold k0_pay10
  show broadcastTo S4000x128 (broadcast S4000x1 (Ideal.ofBits .bf16 0x3F80#16)) broadcasts_S4000x1_S4000x128 (ix2 k j)
        * broadcastTo S4000x128 (fun i => FloatOps.sitofp (F := Ideal) .f32 ((IntOp.cmpi .eq
            (iota .tc S1x128 32 [1] iota_S1x128_d1_w32 i) (BitVec.ofNat 32 0)).setWidth 32))
            broadcasts_S1x128_S4000x128 (ix2 k j)
      + broadcastTo S4000x128 (k0_pay5 (F := Ideal) x0) broadcasts_S4000x1_S4000x128 (ix2 k j)
        * broadcastTo S4000x128 (fun i => FloatOps.sitofp (F := Ideal) .f32 ((IntOp.cmpi .eq
            (iota .tc S1x128 32 [1] iota_S1x128_d1_w32 i) (BitVec.ofNat 32 1)).setWidth 32))
            broadcasts_S1x128_S4000x128 (ix2 k j) = _
  rw [bcast_col, bcast_col, broadcastTo_1b_ab_apply, broadcastTo_1b_ab_apply, pay5_apply, broadcast_apply, bf16_one,
    iota_single_apply]
  exact congrArg₂ (· + ·) (congrArg (1 * ·) (sel_word 0 (by omega) j))
    (congrArg (Seg.sq (fun d => x0 (ix2 k d)) * ·) (sel_word 1 (by omega) j))

/-! ## The contraction over the 4000 triples -/

/-- On the left operand the contracted axis is axis 0 … -/
private theorem lhs_axis0 (i : S256x256.Idx) (q : dot_S4000x256_S4000x256_S256x256_0_0_1_1_n_n.contr.Idx) :
    (dot_S4000x256_S4000x256_S256x256_0_0_1_1_n_n.lhsIdx i q 0).val = (q ⟨0, Nat.one_pos⟩).val :=
  DotDims.lhsIdx_val_of_single dot_S4000x256_S4000x256_S256x256_0_0_1_1_n_n (cl := 0) rfl i q

/-- … and its axis 1 reads the result's row. -/
private theorem lhs_axis1 (i : S256x256.Idx) (q : dot_S4000x256_S4000x256_S256x256_0_0_1_1_n_n.contr.Idx) :
    (dot_S4000x256_S4000x256_S256x256_0_0_1_1_n_n.lhsIdx i q 1).val = (i 0).val := by
  unfold DotDims.lhsIdx
  rw [dif_neg (show ¬(1 : Fin S4000x256.rank) ∈ dot_S4000x256_S4000x256_S256x256_0_0_1_1_n_n.lhsBatch by decide),
    dif_pos (show (1 : Fin S4000x256.rank) ∈ dot_S4000x256_S4000x256_S256x256_0_0_1_1_n_n.lhsNonContracting by decide)]
  rfl

/-- On the right operand the contracted axis is axis 0 … -/
private theorem rhs_axis0 (i : S256x256.Idx) (q : dot_S4000x256_S4000x256_S256x256_0_0_1_1_n_n.contr.Idx) :
    (dot_S4000x256_S4000x256_S256x256_0_0_1_1_n_n.rhsIdx i q 0).val = (q ⟨0, Nat.one_pos⟩).val :=
  DotDims.rhsIdx_val_of_single dot_S4000x256_S4000x256_S256x256_0_0_1_1_n_n (cr := 0) rfl i q

/-- … and its axis 1 reads the result's column. -/
private theorem rhs_axis1 (i : S256x256.Idx) (q : dot_S4000x256_S4000x256_S256x256_0_0_1_1_n_n.contr.Idx) :
    (dot_S4000x256_S4000x256_S256x256_0_0_1_1_n_n.rhsIdx i q 1).val = (i 1).val := by
  unfold DotDims.rhsIdx
  rw [dif_neg (show ¬(1 : Fin S4000x256.rank) ∈ dot_S4000x256_S4000x256_S256x256_0_0_1_1_n_n.rhsBatch by decide),
    dif_pos (show (1 : Fin S4000x256.rank) ∈ dot_S4000x256_S4000x256_S256x256_0_0_1_1_n_n.rhsNonContracting by decide)]
  rfl

/-- The product into a zero accumulator, at `(s, j)`: the sum over the triples `k` of the left operand at `(k, s)`
    times the right operand at `(k, j)`. -/
private theorem matmul_entry (A B : FVec Ideal S4000x256 .bf16) (s j : Fin 256) :
    matmul dot_S4000x256_S4000x256_S256x256_0_0_1_1_n_n none A B (constant (F := Ideal) S256x256 .f32 0x00000000#32)
        (ix2 s j)
      = ∑ k : Fin 4000, A (ix2 k s) * B (ix2 k j) := by
  show FloatOps.matmul dot_S4000x256_S4000x256_S256x256_0_0_1_1_n_n none A B
      (constant (F := Ideal) S256x256 .f32 0x00000000#32) (ix2 s j) = _
  rw [Ideal.matmul_constant_zero_apply,
    ← Equiv.sum_comp (contrEquiv1 dot_S4000x256_S4000x256_S256x256_0_0_1_1_n_n 4000 rfl rfl).symm]
  refine Finset.sum_congr rfl fun k _ => ?_
  have ck := contrEquiv1_symm_val dot_S4000x256_S4000x256_S256x256_0_0_1_1_n_n 4000 rfl rfl k
  have l : dot_S4000x256_S4000x256_S256x256_0_0_1_1_n_n.lhsIdx (ix2 s j)
      ((contrEquiv1 dot_S4000x256_S4000x256_S256x256_0_0_1_1_n_n 4000 rfl rfl).symm k) = ix2 k s := by
    funext ax; apply Fin.ext
    match ax with
    | ⟨0, _⟩ => exact (lhs_axis0 _ _).trans ck
    | ⟨1, _⟩ => exact lhs_axis1 _ _
  have r : dot_S4000x256_S4000x256_S256x256_0_0_1_1_n_n.rhsIdx (ix2 s j)
      ((contrEquiv1 dot_S4000x256_S4000x256_S256x256_0_0_1_1_n_n 4000 rfl rfl).symm k) = ix2 k j := by
    funext ax; apply Fin.ext
    match ax with
    | ⟨0, _⟩ => exact (rhs_axis0 _ _).trans ck
    | ⟨1, _⟩ => exact rhs_axis1 _ _
  rw [l, r]

/-- Two blocks of 128 columns side by side: column `j` is the left block's below 128, else the right block's
    column `j - 128`. -/
private theorem concat_entry {α : Type} (L R : S4000x128.Idx → α) (k : Fin 4000) (j : Fin 256) :
    concatenate S4000x256 1 [⟨S4000x128, L⟩, ⟨S4000x128, R⟩] concatenates_S4000x128_S4000x128_S4000x256_d1 (ix2 k j)
      = if hj : j.val < 128 then L (ix2 k ⟨j.val, hj⟩) else R (ix2 k ⟨j.val - 128, by omega⟩) := by
  by_cases hj : j.val < 128
  · rw [dif_pos hj]
    refine concatenate_pair_apply_left (1 : Fin 2) L R _ (ix2 k j) rfl (ix2 k ⟨j.val, hj⟩) fun b => ?_
    match b with
    | ⟨0, _⟩ => rfl
    | ⟨1, _⟩ => rfl
  · rw [dif_neg hj]
    refine concatenate_pair_apply_right (1 : Fin 2) L R _ (ix2 k j) rfl rfl (ix2 k ⟨j.val - 128, by omega⟩)
      (fun b hb => ?_) ?_
    · match b with
      | ⟨0, _⟩ => rfl
      | ⟨1, _⟩ => exact absurd rfl hb
    · show (j.val - 128) + 128 = j.val
      omega

/-! ## The accumulator after a point -/

/-- The update over ANY operands: what the accumulator held plus the contraction of the left operand with the
    side-by-side matrix, whose right half is the first two auxiliary places plus the residual column times the
    selector row of place 2. -/
private theorem pay1_gen (v16 : FVec Ideal S4000x256 .bf16) (v17 : FVec Ideal S4000x128 .bf16)
    (v33 : FVec Ideal S1x128 .bf16) (v38 : FVec Ideal S4000x1 .bf16) (v45 : FVec Ideal S4000x128 .bf16)
    (v52 : Vec Ideal S256x256 .f32) (s j : Fin 256) :
    k0_pay1 (F := Ideal) v16 v17 v33 v38 v45 v52 (ix2 s j)
      = v52 (ix2 s j) + ∑ k : Fin 4000, v16 (ix2 k s) *
          (if hj : j.val < 128 then v17 (ix2 k ⟨j.val, hj⟩)
           else v45 (ix2 k ⟨j.val - 128, by omega⟩)
              + v38 (ix2 k (0 : Fin 1)) * v33 (ix2 (0 : Fin 1) ⟨j.val - 128, by omega⟩)) := by
  unfold k0_pay1
  show shapeCast S256x256 (addf v52 (matmul dot_S4000x256_S4000x256_S256x256_0_0_1_1_n_n none v16
      (concatenate S4000x256 1 [⟨S4000x128, v17⟩, ⟨S4000x128, addf v45 (mulf
          (broadcastTo S4000x128 v38 broadcasts_S4000x1_S4000x128)
          (broadcastTo S4000x128 v33 broadcasts_S1x128_S4000x128))⟩]
        concatenates_S4000x128_S4000x128_S4000x256_d1)
      (constant (F := Ideal) S256x256 .f32 0x00000000#32))) shapeCasts_S256x256_S256x256 (ix2 s j) = _
  rw [shapeCast_self, addf_apply, matmul_entry]
  refine congrArg (v52 (ix2 s j) + ·) (Finset.sum_congr rfl fun k _ => congrArg (v16 (ix2 k s) * ·) ?_)
  rw [concat_entry]
  by_cases hj : j.val < 128
  · rw [dif_pos hj, dif_pos hj]
  · rw [dif_neg hj, dif_neg hj, addf_apply, mulf_apply, bcast_col, broadcastTo_1b_ab_apply]

/-- The accumulator after a point, at entry `(s, j)`: what it held plus the one-hot product of the point's block. -/
theorem pay1_apply (x0 : Vec Ideal S4000x128 .f32) (x1 : Vec Ideal S4000x1 .i32) (v52 : Vec Ideal S256x256 .f32)
    (s j : Fin 256) :
    k0_pay1 (F := Ideal) (k0_pay6 (F := Ideal) x1) (k0_pay7 (F := Ideal) x0) (k0_pay8 (F := Ideal))
        (k0_pay9 (F := Ideal) x0) (k0_pay10 (F := Ideal) x0) v52 (ix2 s j)
      = v52 (ix2 s j) + ∑ k : Fin 4000, onehot (x1 (ix2 k 0)) s * rhsRow (fun d => x0 (ix2 k d)) j := by
  rw [pay1_gen]
  refine congrArg (v52 (ix2 s j) + ·) (Finset.sum_congr rfl fun k _ => ?_)
  rw [pay6_apply]
  refine congrArg (onehot (x1 (ix2 k 0)) s * ·) ?_
  unfold rhsRow
  by_cases hj : j.val < 128
  · rw [dif_pos hj, dif_pos hj, pay7_apply]
  · rw [dif_neg hj, dif_neg hj, pay10_apply, pay9_apply, pay8_apply]
    rfl

/-- The value the accumulator is reset to is zero everywhere. -/
theorem pay3_apply (s j : Fin 256) : k0_pay3 (F := Ideal) (ix2 s j) = 0 := by
  unfold k0_pay3
  show shapeCast S256x256 (broadcast S256x256 (Ideal.ofBits .f32 0x00000000#32)) shapeCasts_S256x256_S256x256
      (ix2 s j) = _
  rw [shapeCast_self, broadcast_apply, Ideal.ofBits_zero_f32]

/-- The output block is the accumulator with a leading axis of extent one. -/
theorem pay2_apply (v60 : Vec Ideal S256x256 .f32) (s j : Fin 256) :
    k0_pay2 (F := Ideal) v60 (ix3 (0 : Fin 1) s j) = v60 (ix2 s j) := by
  unfold k0_pay2
  exact shapeCast_ab_1ab_apply v60 shapeCasts_S256x256_S1x256x256 (0 : Fin 1) s j

end Cert.KernelIdeal.PointValue

end
-- ==== Proof.KernelArray.lean ====
import proofs.«404307_j64750926954631_3_alg».proof.Proof.Gen.KernelIdeal.Frame
import proofs.«404307_j64750926954631_3_alg».proof.Proof.Pieces
import proofs.«404307_j64750926954631_3_alg».proof.Proof.PointValue
import proofs.«404307_j64750926954631_3_alg».proof.Proof.SegmentSpec
import Idealize.ShloMosaic.Lib.Pipeline.Value
import Idealize.ShloMosaic.Lib.ValueIdx

/-!
# The region's output array after the run

The grid has 2 × 125 points; point `n` streams run `n` of the triples (rows `4000 n … 4000 n + 3999` of the
difference array and of the segment column). Over each run of 125 consecutive points the accumulator is reset at the
first point and receives one one-hot product per point, so after the run's last point it holds the sum of the 125
products onto zero; that last point copies it into plane `n / 125` of the output array. Hence the output array,
after the region, is the pair of partial results of the expanded arrangement.
-/

set_option maxRecDepth 16384

noncomputable section

open scoped BigOperators

namespace Cert.KernelIdeal.ArrayValue

open Cert.KernelIdeal Cert.KernelIdeal.Gen Cert.Seg
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The difference array as the region finds it. -/
abbrev diffArr (c : Dev nD) : S1000000x128.Idx → EReal := V m c main_v14
/-- The column of segment words as the region finds it. -/
abbrev segArr (c : Dev nD) : S1000000x1.Idx → BitVec 32 := V m c main_v22

/-- Row `t` of the difference array. -/
def aRow (c : Dev nD) (t : Fin 1000000) (d : Fin 128) : EReal := diffArr m c (ix2 t d)
/-- The segment word of triple `t`. -/
def sWord (c : Dev nD) (t : Fin 1000000) : BitVec 32 := segArr m c (ix2 t (0 : Fin 1))

/-- The block of difference rows at a point. -/
abbrev xblk (c : Dev nD) (t : Fin cfg0.N) : Vec Ideal S4000x128 .f32 := iblk m c 0 t
/-- The block of segment words at a point. -/
abbrev sblk (c : Dev nD) (t : Fin cfg0.N) : Vec Ideal S4000x1 .i32 := iblk m c 1 t

/-- The printed index maps over the grid: the input blocks at point `t` are block `t`; the output block is plane `t / 125`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 125 ∧ win0_2.index t (1 : Fin 3) = 0 ∧ win0_2.index t (2 : Fin 3) = 0 :=
  (by decide +kernel : ∀ t : Fin grid0.N, _)

theorem N_eq : cfg0.N = 250 := N_0

/-- Row `k` of the block at point `t` is row `4000 t + k` of the difference array. -/
theorem xblk_apply (c : Dev nD) (t : Fin cfg0.N) (k : Fin 4000) (d : Fin 128) (h : 4000 * t.val + k.val < 1000000) :
    xblk m c t (ix2 k d) = diffArr m c (ix2 ⟨4000 * t.val + k.val, h⟩ d) := by
  show V m c main_v14 (((cfg0.win 0).blk t).view.emb (ix2 k d)) = V m c main_v14 (ix2 ⟨4000 * t.val + k.val, h⟩ d)
  refine congrArg _ ?_
  funext a; apply Fin.ext
  obtain ⟨e0, e1, -⟩ := idx_facts t
  match a with
  | ⟨0, _⟩ => show win0_0.index t (0 : Fin 2) * 4000 + 1 * k.val = 4000 * t.val + k.val; omega
  | ⟨1, _⟩ => show win0_0.index t (1 : Fin 2) * 128 + 1 * d.val = d.val; omega

/-- Word `k` of the block at point `t` is the segment word of triple `4000 t + k`. -/
theorem sblk_apply (c : Dev nD) (t : Fin cfg0.N) (k : Fin 4000) (h : 4000 * t.val + k.val < 1000000) :
    sblk m c t (ix2 k (0 : Fin 1)) = segArr m c (ix2 ⟨4000 * t.val + k.val, h⟩ (0 : Fin 1)) := by
  show V m c main_v22 (((cfg0.win 1).blk t).view.emb (ix2 k (0 : Fin 1))) = V m c main_v22 (ix2 ⟨4000 * t.val + k.val, h⟩ (0 : Fin 1))
  refine congrArg _ ?_
  funext a; apply Fin.ext
  obtain ⟨-, -, e2, e3, -⟩ := idx_facts t
  match a with
  | ⟨0, _⟩ => show win0_1.index t (0 : Fin 2) * 4000 + 1 * k.val = 4000 * t.val + k.val; omega
  | ⟨1, _⟩ => show win0_1.index t (1 : Fin 2) * 1 + 1 * (0 : Nat) = 0; omega

/-! ## One point's step -/

/-- What a point makes of the accumulator: the body's arithmetic of the point's two blocks and of what the accumulator held. -/
def step (c : Dev nD) (t : Fin cfg0.N) (prev : Vec Ideal S256x256 .f32) : Vec Ideal S256x256 .f32 :=
  k0_pay1 (F := Ideal) (k0_pay6 (F := Ideal) (sblk m c t)) (k0_pay7 (F := Ideal) (xblk m c t)) (k0_pay8 (F := Ideal))
    (k0_pay9 (F := Ideal) (xblk m c t)) (k0_pay10 (F := Ideal) (xblk m c t)) prev

/-- At the first point of a run the accumulator ends at the step from zero. -/
theorem acc_reset (c : Dev nD) (t : Fin cfg0.N) (h0 : t.val % 125 = 0) :
    (outsAt0 m c t.val t.isLt).2 = step m c t (k0_pay3 (F := Ideal)) := by
  have h1 : ¬t.val % 125 = 124 := by omega
  rw [outsAt0_A m c t h0 h1]
  dsimp only
  exact Pieces.sout0_A_0_eq (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- At every other point the accumulator ends at the step from what the point before left. -/
theorem acc_step (c : Dev nD) (t : Fin cfg0.N) (h0 : ¬t.val % 125 = 0) :
    (outsAt0 m c t.val t.isLt).2
      = step m c t ((outsAt0 m c (t.val - 1) (Nat.lt_of_le_of_lt (Nat.sub_le _ _) t.isLt)).2) := by
  by_cases h1 : t.val % 125 = 124
  · rw [outsAt0_C m c t h0 h1]
    dsimp only
    exact Pieces.sout0_C_0_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) ((outsAt0 m c (t.val - 1) (Nat.lt_of_le_of_lt (Nat.sub_le _ _) t.isLt)).2)
  · rw [outsAt0_B m c t h0 h1]
    dsimp only
    exact Pieces.sout0_B_0_eq (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) ((outsAt0 m c (t.val - 1) (Nat.lt_of_le_of_lt (Nat.sub_le _ _) t.isLt)).2)

/-- At the last point of a run the output block is the accumulator the point has just updated, with a unit leading axis. -/
theorem out_flush (c : Dev nD) (t : Fin cfg0.N) (h0 : ¬t.val % 125 = 0) (h1 : t.val % 125 = 124) :
    (outsAt0 m c t.val t.isLt).1 = k0_pay2 (F := Ideal) ((outsAt0 m c t.val t.isLt).2) := by
  rw [outsAt0_C m c t h0 h1]
  dsimp only
  exact (Pieces.out0_C_2_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) ((outsAt0 m c (t.val - 1) (Nat.lt_of_le_of_lt (Nat.sub_le _ _) t.isLt)).2)).trans
    (congrArg (k0_pay2 (F := Ideal)) (Pieces.sout0_C_0_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) ((outsAt0 m c (t.val - 1) (Nat.lt_of_le_of_lt (Nat.sub_le _ _) t.isLt)).2)).symm)

/-! ## The step at an entry: the accumulator's entry plus the run's one-hot product -/

/-- The difference rows and the segment words as functions of any natural. -/
abbrev aN (c : Dev nD) : Nat → Fin 128 → EReal := extRow (aRow m c)
abbrev sN (c : Dev nD) : Nat → BitVec 32 := extSeg (sWord m c)

theorem step_apply (c : Dev nD) (t : Fin cfg0.N) (prev : Vec Ideal S256x256 .f32) (p q : Fin 256) :
    step m c t prev (ix2 p q) = prev (ix2 p q) + pointSum (aN m c) (sN m c) t.val p q := by
  have hN : t.val < 250 := lt_of_lt_of_eq t.isLt N_eq
  unfold step
  rw [PointValue.pay1_apply]
  refine congrArg (prev (ix2 p q) + ·) ?_
  unfold pointSum
  refine Finset.sum_congr rfl fun k _ => ?_
  have hk : 4000 * t.val + k.val < 1000000 := by have := k.isLt; omega
  have e1 : sblk m c t (ix2 k (0 : Fin 1)) = sN m c (4000 * t.val + k.val) := by
    rw [sblk_apply m c t k hk]
    show _ = extSeg (sWord m c) (4000 * t.val + k.val)
    unfold extSeg
    rw [dif_pos hk]
    rfl
  have e2 : (fun d : Fin 128 => xblk m c t (ix2 k d)) = aN m c (4000 * t.val + k.val) := by
    show _ = extRow (aRow m c) (4000 * t.val + k.val)
    unfold extRow
    rw [dif_pos hk]
    funext d
    rw [xblk_apply m c t k d hk]
    rfl
  rw [e1, e2]

/-! ## The accumulator over a run -/

/-- What the accumulator holds after point `n`. -/
def accF (c : Dev nD) (n : Nat) (hn : n < cfg0.N) : Vec Ideal S256x256 .f32 := (outsAt0 m c n hn).2

/-- The run's addend at point `n`, as a function of the entry. -/
def addend (c : Dev nD) (n : Nat) (i : S256x256.Idx) : EReal :=
  pointSum (aN m c) (sN m c) n ⟨(i 0).val, idx2_lt0 i⟩ ⟨(i 1).val, idx2_lt1 i⟩

/-- After the last point of run `r` the accumulator holds partial result `r`. -/
theorem acc_last (c : Dev nD) (t : Fin cfg0.N) (h1 : t.val % 125 = 124) (p q : Fin 256) :
    (outsAt0 m c t.val t.isLt).2 (ix2 p q) = blockSum (aN m c) (sN m c) (t.val / 125) p q := by
  have hN : t.val < 250 := lt_of_lt_of_eq t.isLt N_eq
  have h' : 125 * (t.val / 125) + t.val % 125 < cfg0.N := by rw [Nat.div_add_mod]; exact t.isLt
  have hfold := Pipeline.eq_accAt_of_mod (accF m c) 125
    (fun n hn => step m c ⟨n, hn⟩ (k0_pay3 (F := Ideal))) (fun n hn prev => step m c ⟨n, hn⟩ prev)
    (fun n hn h0 => acc_reset m c ⟨n, hn⟩ h0)
    (fun n hn h0 => acc_step m c ⟨n + 1, hn⟩ h0)
    (by norm_num) t.val t.isLt h'
  have hsum := Pipeline.accAt_add_apply (N := cfg0.N)
    (fun n hn => step m c ⟨n, hn⟩ (k0_pay3 (F := Ideal))) (fun n hn prev => step m c ⟨n, hn⟩ prev)
    (fun _ => (0 : EReal)) (addend m c) (125 * (t.val / 125)) 124
    (fun hb i => by
      obtain ⟨p', q', rfl⟩ : ∃ (p' q' : Fin 256), i = ix2 p' q' := ⟨i 0, i 1, eq_ix2 i⟩
      show step m c ⟨125 * (t.val / 125), hb⟩ (k0_pay3 (F := Ideal)) (ix2 p' q') = 0 + pointSum (aN m c) (sN m c) (125 * (t.val / 125)) p' q'
      rw [step_apply, PointValue.pay3_apply])
    (fun n hn acc i _ _ => by
      obtain ⟨p', q', rfl⟩ : ∃ (p' q' : Fin 256), i = ix2 p' q' := ⟨i 0, i 1, eq_ix2 i⟩
      show step m c ⟨n, hn⟩ acc (ix2 p' q') = acc (ix2 p' q') + pointSum (aN m c) (sN m c) n p' q'
      rw [step_apply])
    (t.val % 125) (by omega) h' (ix2 p q)
  show accF m c t.val t.isLt (ix2 p q) = _
  rw [hfold, hsum, h1]
  rfl

/-! ## The output array -/

/-- The output array after the region: plane `r` is partial result `r`. -/
def outArr (c : Dev nD) : S2x256x256.Idx → EReal := fun i =>
  blockSum (aN m c) (sN m c) (i 0).val ⟨(i 1).val, (i 1).isLt⟩ ⟨(i 2).val, (i 2).isLt⟩

/-- Entry `(0, p, q)` of the output block at point `t` sits at `(t / 125, p, q)` of the output array. -/
theorem emb_out (t : Fin cfg0.N) (p q : Fin 256) (h : t.val / 125 < 2) :
    ((cfg0.win 2).blk t).view.emb (ix3 (0 : Fin 1) p q) = ix3 (⟨t.val / 125, h⟩ : Fin 2) p q := by
  funext a; apply Fin.ext
  obtain ⟨-, -, -, -, e4, e5, e6⟩ := idx_facts t
  match a with
  | ⟨0, _⟩ => show win0_2.index t (0 : Fin 3) * 1 + 1 * (0 : Nat) = t.val / 125; omega
  | ⟨1, _⟩ => show win0_2.index t (1 : Fin 3) * 256 + 1 * p.val = p.val; omega
  | ⟨2, _⟩ => show win0_2.index t (2 : Fin 3) * 256 + 1 * q.val = q.val; omega

/-- What a writing-back point writes back is its block of the output array. -/
theorem flushed_eq (c : Dev nD) (t : Fin cfg0.N) (hf : (cfg0.win 2).flush t = true) :
    (dats m 0 c).flushed 2 t = ((cfg0.win 2).blk t).view.read (Elt Ideal) (outArr m c) := by
  have h1 : t.val % 125 = 124 := (flush0_2 t).mp hf
  have h0 : ¬t.val % 125 = 0 := by omega
  have hN : t.val < 250 := lt_of_lt_of_eq t.isLt N_eq
  have hq : t.val / 125 < 2 := by omega
  show (cfg0.win 2).cut (grid0.coords t) ((dats m 0 c).after 2 t) = _
  rw [after0_2, out_flush m c t h0 h1]
  funext y
  obtain ⟨z, p, q, rfl⟩ : ∃ (z : Fin 1) (p q : Fin 256), y = ix3 z p q := ⟨y 0, y 1, y 2, eq_ix3 y⟩
  obtain rfl : z = 0 := Subsingleton.elim _ _
  show k0_pay2 (F := Ideal) ((outsAt0 m c t.val t.isLt).2) (ix3 (0 : Fin 1) p q) = outArr m c (((cfg0.win 2).blk t).view.emb (ix3 (0 : Fin 1) p q))
  rw [PointValue.pay2_apply, acc_last m c t h1 p q, emb_out t p q hq]
  rfl

/-- An index of the output array is in point `t`'s block iff each coordinate is in the block's range on its axis. -/
theorem mem_blk (t : Fin cfg0.N) (i : S2x256x256.Idx) :
    i ∈ ((cfg0.win 2).blk t).view.set ↔ ∀ a : Fin 3, win0_2.index t a * S1x256x256.size a ≤ (i a).val ∧ (i a).val < win0_2.index t a * S1x256x256.size a + S1x256x256.size a := by
  show i ∈ ((View.whole main_v23).slice (win0_2.rect t)).set ↔ _
  rw [View.set_slice_whole, Rect.mem_set_unit]
  exact Iff.rfl

/-- Every entry of the output array is in the block of a point that writes back: plane `r` is written by point `125 r + 124`. -/
theorem cover (i : S2x256x256.Idx) :
    ∃ t : Fin cfg0.N, (cfg0.win 2).flush t = true ∧ i ∈ ((cfg0.win 2).blk t).view.set := by
  have h0 : (i 0).val < 2 := (i 0).isLt
  have h1 : (i 1).val < 256 := (i 1).isLt
  have h2 : (i 2).val < 256 := (i 2).isLt
  have ht : 125 * (i 0).val + 124 < cfg0.N := lt_of_lt_of_eq (by omega) N_eq.symm
  refine ⟨⟨125 * (i 0).val + 124, ht⟩, (flush0_2 _).mpr (by show (125 * (i 0).val + 124) % 125 = 124; omega), ?_⟩
  rw [mem_blk]
  obtain ⟨-, -, -, -, e4, e5, e6⟩ := idx_facts ⟨125 * (i 0).val + 124, ht⟩
  have e4' : win0_2.index ⟨125 * (i 0).val + 124, ht⟩ (0 : Fin 3) = (i 0).val := by
    rw [e4]; show (125 * (i 0).val + 124) / 125 = (i 0).val; omega
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 256 ≤ (i 1).val ∧ (i 1).val < win0_2.index _ (1 : Fin 3) * 256 + 256; omega
  | ⟨2, _⟩ => show win0_2.index _ (2 : Fin 3) * 256 ≤ (i 2).val ∧ (i 2).val < win0_2.index _ (2 : Fin 3) * 256 + 256; omega

/-- THE OUTPUT ARRAY after the region is the pair of partial results. -/
theorem final (c : Dev nD) : (dats m 0 c).arrAt 2 cfg0.N = outArr m c :=
  (dats m 0 c).arrAt_eq_of_cover 2 (outArr m c) (fun t hf => flushed_eq m c t hf) cover

/-- The two planes added, entry `(s, j)`, are the merged product of the expanded arrangement. -/
theorem outArr_merged (c : Dev nD) (s j : Fin 256) :
    outArr m c (ix3 (0 : Fin 2) s j) + outArr m c (ix3 (1 : Fin 2) s j) = merged (aN m c) (sN m c) s j := rfl

end Cert.KernelIdeal.ArrayValue

end
-- ==== Proof.LibIdealReal.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.Order.BigOperators.Group.Finset
import Mathlib.Analysis.SpecialFunctions.Exp
import Mathlib.Tactic.Ring
import Mathlib.Tactic.FieldSimp
import Mathlib.Tactic.Positivity
import Mathlib.Tactic.NormNum

/-!
# The real part of the extended reals, as the ideal float values

The ideal float values are the extended reals `[-∞, +∞]`. A value is *real* when it is neither
infinity. This file collects: closure of the real values under the arithmetic a normalisation layer
uses (sum, difference, product, maximum, finite sums, quotient by a nonzero real, reciprocal square
root of a positive real, exponential); the vanishing of the low-order partial products of a product
computed in three passes; the identity between the one-pass variance `E[x²] − E[x]²` clamped at
zero and the two-pass variance `E[(x − E x)²]` of real data; and the real numbers a few `f32`
bit patterns denote.
-/

open Idealize.ShloMosaic

namespace Cert.Lib

/-- An extended real is *real* when it is the image of a real number: neither `+∞` nor `-∞`. -/
def IsReal (x : EReal) : Prop := ∃ r : ℝ, x = (r : EReal)

/-- The image of a real number is real. -/
theorem IsReal.coe (r : ℝ) : IsReal (r : EReal) := ⟨r, rfl⟩

/-- Zero is real. -/
theorem IsReal.zero : IsReal (0 : EReal) := ⟨0, rfl⟩

/-- One is real. -/
theorem IsReal.one : IsReal (1 : EReal) := ⟨1, rfl⟩

/-- A real value is not `+∞`. -/
theorem IsReal.ne_top {x : EReal} (hx : IsReal x) : x ≠ ⊤ := by
  obtain ⟨a, rfl⟩ := hx; exact EReal.coe_ne_top a

/-- A real value is not `-∞`. -/
theorem IsReal.ne_bot {x : EReal} (hx : IsReal x) : x ≠ ⊥ := by
  obtain ⟨a, rfl⟩ := hx; exact EReal.coe_ne_bot a

/-- A real value is the image of its real part. -/
theorem IsReal.coe_toReal {x : EReal} (hx : IsReal x) : ((x.toReal : ℝ) : EReal) = x :=
  EReal.coe_toReal hx.ne_top hx.ne_bot

/-- The sum of two real values is real. -/
protected theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two real values is real. -/
protected theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real values is real. -/
protected theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The opposite of a real value is real. -/
protected theorem IsReal.neg {x : EReal} (hx : IsReal x) : IsReal (-x) := by
  obtain ⟨a, rfl⟩ := hx; exact ⟨-a, (EReal.coe_neg a).symm⟩

/-- The inclusion of the reals in the extended reals commutes with the maximum. -/
theorem coe_max (a b : ℝ) : ((Max.max a b : ℝ) : EReal) = Max.max (a : EReal) (b : EReal) :=
  (EReal.coe_strictMono.monotone).map_max

/-- The maximum of two real values is real. -/
protected theorem IsReal.max {x y : EReal} (hx : IsReal x) (hy : IsReal y) : IsReal (Max.max x y) := by
  obtain ⟨a, rfl⟩ := hx; obtain ⟨b, rfl⟩ := hy; exact ⟨Max.max a b, (coe_max a b).symm⟩

/-- The inclusion of the reals in the extended reals commutes with finite sums. -/
theorem coe_sum {ι : Type*} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- A finite sum of real values is real. -/
protected theorem IsReal.sum {ι : Type*} (s : Finset ι) (f : ι → EReal) (h : ∀ i ∈ s, IsReal (f i)) :
    IsReal (∑ i ∈ s, f i) := by
  classical
  induction s using Finset.induction_on with
  | empty => simpa using IsReal.zero
  | insert i s hi ih =>
    rw [Finset.sum_insert hi]
    exact (h i (Finset.mem_insert_self i s)).add (ih fun j hj => h j (Finset.mem_insert_of_mem hj))

/-- The quotient of a real value by a nonzero real value is real. -/
protected theorem IsReal.div {x y : EReal} (hx : IsReal x) (hy : IsReal y) (h0 : y ≠ 0) :
    IsReal (Ideal.div x y) := by
  obtain ⟨a, rfl⟩ := hx; obtain ⟨b, rfl⟩ := hy
  have hb : b ≠ 0 := fun h => h0 (by rw [h, EReal.coe_zero])
  rw [Ideal.div_coe hb]
  exact ⟨a * (1 / b), (EReal.coe_mul a (1 / b)).symm⟩

/-- The reciprocal square root of a positive real value is real. -/
protected theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact ⟨_, rfl⟩

/-- The exponential of a real value is real. -/
protected theorem IsReal.exp {x : EReal} (hx : IsReal x) : IsReal (Ideal.exp x) := by
  obtain ⟨a, rfl⟩ := hx; exact ⟨Real.exp a, rfl⟩

/-- The exponential of a real value is positive. -/
theorem exp_pos_of_isReal {x : EReal} (hx : IsReal x) : 0 < Ideal.exp x := by
  obtain ⟨a, rfl⟩ := hx
  rw [Ideal.exp_coe]
  exact EReal.coe_pos.mpr (Real.exp_pos a)

/-- An extended real whose absolute value `max x (-x)` is below `+∞` is real. -/
theorem isReal_of_abs_lt_top {x : EReal} (h : Max.max x (-x) < ⊤) : IsReal x := by
  induction x with
  | bot => simp at h
  | coe r => exact ⟨r, rfl⟩
  | top => simp at h

/-- On a real value, `x - x = 0` (false at the infinities, where the difference is `-∞`). -/
theorem sub_self_of_isReal {x : EReal} (h : IsReal x) : x - x = 0 := by
  obtain ⟨a, rfl⟩ := h
  rw [← EReal.coe_sub, sub_self, EReal.coe_zero]

/-- The square of a real value is nonnegative. -/
theorem mul_self_nonneg_of_isReal {x : EReal} (h : IsReal x) : 0 ≤ x * x := by
  obtain ⟨a, rfl⟩ := h
  rw [← EReal.coe_mul]
  exact EReal.coe_nonneg.mpr (mul_self_nonneg a)

/-- A finite sum of squares of real values is nonnegative. -/
theorem sum_mul_self_nonneg {ι : Type*} (s : Finset ι) (f : ι → EReal) (h : ∀ i ∈ s, IsReal (f i)) :
    0 ≤ ∑ i ∈ s, f i * f i :=
  Finset.sum_nonneg fun i hi => mul_self_nonneg_of_isReal (h i hi)

/-- A nonnegative value plus a positive one is positive. -/
theorem pos_add_of_nonneg {v e : EReal} (hv : 0 ≤ v) (he : 0 < e) : 0 < v + e :=
  he.trans_le (le_add_of_nonneg_left hv)

/-- A product `x · W` computed as three partial products — `x · w`, `x · wl` and `(x − x) · w`, each onto a
    zero accumulator — where the low part `wl` of the weights is zero and the data are real: the second and
    third sums vanish and the total is the plain sum of products. -/
theorem dot3 {κ : Type} [Fintype κ] (x w wl : κ → EReal) (hx : ∀ k, IsReal (x k)) (hwl : ∀ k, wl k = 0) :
    ((0 + ∑ k, x k * w k) + (0 + ∑ k, x k * wl k)) + (0 + ∑ k, (x k - x k) * w k) = ∑ k, x k * w k := by
  have h2 : ∑ k, x k * wl k = 0 := Finset.sum_eq_zero fun k _ => by rw [hwl k, mul_zero]
  have h3 : ∑ k, (x k - x k) * w k = 0 :=
    Finset.sum_eq_zero fun k _ => by rw [sub_self_of_isReal (hx k), zero_mul]
  rw [h2, h3, zero_add, zero_add, add_zero, add_zero]

/-- The mean of real data, `(0 + ∑ a) / N` for a nonzero real `N`, is the real number `(∑ a) · (1/N)`. -/
theorem div_sum_coe {ι : Type*} (s : Finset ι) (a : ι → ℝ) {N : ℝ} (hN : N ≠ 0) :
    Ideal.div (0 + ∑ i ∈ s, ((a i : ℝ) : EReal)) (N : EReal) = (((∑ i ∈ s, a i) * (1 / N) : ℝ) : EReal) := by
  rw [zero_add, Ideal.div_coe hN, coe_sum, ← EReal.coe_mul]

/-- In the reals: the two-pass variance `(∑ (a − m)²) / N` about the mean `m = (∑ a) / N` of `N` numbers
    is the one-pass form `(∑ a²) / N − m²`. -/
theorem real_variance {ι : Type*} [Fintype ι] (a : ι → ℝ) (N : ℝ) (hN : (Fintype.card ι : ℝ) = N)
    (hpos : 0 < N) :
    (∑ i, (a i - (∑ j, a j) * (1 / N)) * (a i - (∑ j, a j) * (1 / N))) * (1 / N)
      = (∑ i, a i * a i) * (1 / N) - ((∑ i, a i) * (1 / N)) * ((∑ i, a i) * (1 / N)) := by
  have hN0 : N ≠ 0 := hpos.ne'
  have h1 : ∀ m : ℝ, ∑ i, (a i - m) * (a i - m) = ∑ i, a i * a i - 2 * m * ∑ i, a i + N * (m * m) := by
    intro m
    have e : ∀ i, (a i - m) * (a i - m) = a i * a i - 2 * m * a i + m * m := fun i => by ring
    simp only [e]
    rw [Finset.sum_add_distrib, Finset.sum_sub_distrib, ← Finset.mul_sum, Finset.sum_const,
      Finset.card_univ, nsmul_eq_mul, hN]
  rw [h1]
  field_simp
  ring

/-- The two-pass variance of real data is a real number: the image of `(∑ (a − m)²) · (1/N)`. -/
theorem twoPass_coe {ι : Type*} [Fintype ι] (a : ι → ℝ) {N : ℝ} (hN : N ≠ 0) :
    Ideal.div (0 + ∑ i, (((a i : ℝ) : EReal) - Ideal.div (0 + ∑ j, ((a j : ℝ) : EReal)) (N : EReal))
        * (((a i : ℝ) : EReal) - Ideal.div (0 + ∑ j, ((a j : ℝ) : EReal)) (N : EReal))) (N : EReal)
      = (((∑ i, (a i - (∑ j, a j) * (1 / N)) * (a i - (∑ j, a j) * (1 / N))) * (1 / N) : ℝ) : EReal) := by
  rw [div_sum_coe Finset.univ a hN]
  simp only [← EReal.coe_sub, ← EReal.coe_mul]
  exact div_sum_coe Finset.univ (fun i => (a i - (∑ j, a j) * (1 / N)) * (a i - (∑ j, a j) * (1 / N))) hN

/-- The one-pass variance `E[x²] − E[x]²`, clamped below at `0`, IS the two-pass variance `E[(x − E x)²]`
    of real data `x` over `N = card ι > 0` points: both are the same real number, and a mean of squares is
    nonnegative, so the clamp is the identity. -/
theorem variance_eq {ι : Type} [Fintype ι] (x : ι → EReal) (hx : ∀ i, IsReal (x i)) (N : ℝ)
    (hN : (Fintype.card ι : ℝ) = N) (hpos : 0 < N) :
    Max.max (Ideal.div (0 + ∑ i, x i * x i) (N : EReal)
        - Ideal.div (0 + ∑ i, x i) (N : EReal) * Ideal.div (0 + ∑ i, x i) (N : EReal)) 0
      = Ideal.div (0 + ∑ i, (x i - Ideal.div (0 + ∑ j, x j) (N : EReal))
          * (x i - Ideal.div (0 + ∑ j, x j) (N : EReal))) (N : EReal) := by
  choose a ha using hx
  have hN0 : N ≠ 0 := hpos.ne'
  simp only [ha]
  rw [twoPass_coe a hN0, div_sum_coe Finset.univ a hN0]
  simp only [← EReal.coe_mul]
  rw [div_sum_coe Finset.univ (fun i => a i * a i) hN0, ← EReal.coe_sub,
    ← EReal.coe_zero, ← coe_max, ← real_variance a N hN hpos]
  congr 1
  exact max_eq_left (mul_nonneg (Finset.sum_nonneg fun i _ => mul_self_nonneg _) (by positivity))

/-- The mean `(0 + ∑ x) / N` of real data over a nonzero real `N` is real. -/
theorem mean_isReal {ι : Type} [Fintype ι] (x : ι → EReal) (hx : ∀ i, IsReal (x i)) (N : ℝ)
    (hN : (Fintype.card ι : ℝ) = N) (hpos : 0 < N) : IsReal (Ideal.div (0 + ∑ i, x i) (N : EReal)) := by
  choose a ha using hx
  simp only [ha]
  rw [div_sum_coe Finset.univ a hpos.ne']
  exact IsReal.coe _

/-- The two-pass variance of real data over `N > 0` points is real. -/
theorem variance_isReal {ι : Type} [Fintype ι] (x : ι → EReal) (hx : ∀ i, IsReal (x i)) (N : ℝ)
    (hN : (Fintype.card ι : ℝ) = N) (hpos : 0 < N) :
    IsReal (Ideal.div (0 + ∑ i, (x i - Ideal.div (0 + ∑ j, x j) (N : EReal))
      * (x i - Ideal.div (0 + ∑ j, x j) (N : EReal))) (N : EReal)) := by
  choose a ha using hx
  simp only [ha]
  rw [twoPass_coe a hpos.ne']
  exact IsReal.coe _

/-- The two-pass variance of real data over `N > 0` points is nonnegative. -/
theorem variance_nonneg {ι : Type} [Fintype ι] (x : ι → EReal) (hx : ∀ i, IsReal (x i)) (N : ℝ)
    (hN : (Fintype.card ι : ℝ) = N) (hpos : 0 < N) :
    0 ≤ Ideal.div (0 + ∑ i, (x i - Ideal.div (0 + ∑ j, x j) (N : EReal))
      * (x i - Ideal.div (0 + ∑ j, x j) (N : EReal))) (N : EReal) := by
  choose a ha using hx
  simp only [ha]
  rw [twoPass_coe a hpos.ne']
  exact EReal.coe_nonneg.mpr
    (mul_nonneg (Finset.sum_nonneg fun i _ => mul_self_nonneg _) (by positivity))

/-! ### The real numbers a few `f32` patterns denote -/

/-- The `f32` pattern `0x3F800000` denotes `1`. -/
theorem ofBits_f32_one : Ideal.ofBits .f32 0x3F800000#32 = 1 := by
  simp [Ideal.ofBits, Ideal.ieee, -EReal.coe_mul]; norm_num

/-- The `f32` pattern `0x48742400` denotes `250000`. -/
theorem ofBits_f32_250000 : Ideal.ofBits .f32 0x48742400#32 = ((250000 : ℝ) : EReal) := by
  simp [Ideal.ofBits, Ideal.ieee, -EReal.coe_mul]; norm_num

/-- The `f32` pattern `0x479C4000` denotes `80000`. -/
theorem ofBits_f32_80000 : Ideal.ofBits .f32 0x479C4000#32 = ((80000 : ℝ) : EReal) := by
  simp [Ideal.ofBits, Ideal.ieee, -EReal.coe_mul]; norm_num

/-- The `f32` pattern `0x44FA0000` denotes `2000`. -/
theorem ofBits_f32_2000 : Ideal.ofBits .f32 0x44FA0000#32 = ((2000 : ℝ) : EReal) := by
  simp [Ideal.ofBits, Ideal.ieee, -EReal.coe_mul]; norm_num

/-- The `f32` pattern `0x3727C5AC` (the `f32` nearest `10⁻⁵`) denotes the real `10995116 · 2⁻⁴⁰`. -/
theorem ofBits_f32_1em5 :
    Ideal.ofBits .f32 0x3727C5AC#32 = (((10995116 : ℝ) * (2 : ℝ) ^ (-40 : Int) : ℝ) : EReal) := by
  simp [Ideal.ofBits, Ideal.ieee, -EReal.coe_mul]

/-- The `f32` pattern `0x358637BD` (the `f32` nearest `10⁻⁶`) denotes the real `8796093 · 2⁻⁴³`. -/
theorem ofBits_f32_1em6 :
    Ideal.ofBits .f32 0x358637BD#32 = (((8796093 : ℝ) * (2 : ℝ) ^ (-43 : Int) : ℝ) : EReal) := by
  simp [Ideal.ofBits, Ideal.ieee, -EReal.coe_mul]

/-- The `f32` nearest `10⁻⁵` is real. -/
theorem ofBits_f32_1em5_isReal : IsReal (Ideal.ofBits .f32 0x3727C5AC#32) := by
  rw [ofBits_f32_1em5]; exact IsReal.coe _

/-- The `f32` nearest `10⁻⁵` is positive. -/
theorem ofBits_f32_1em5_pos : 0 < Ideal.ofBits .f32 0x3727C5AC#32 := by
  rw [ofBits_f32_1em5]; exact EReal.coe_pos.mpr (by positivity)

/-- The `f32` nearest `10⁻⁶` is real. -/
theorem ofBits_f32_1em6_isReal : IsReal (Ideal.ofBits .f32 0x358637BD#32) := by
  rw [ofBits_f32_1em6]; exact IsReal.coe _

/-- The `f32` nearest `10⁻⁶` is positive. -/
theorem ofBits_f32_1em6_pos : 0 < Ideal.ofBits .f32 0x358637BD#32 := by
  rw [ofBits_f32_1em6]; exact EReal.coe_pos.mpr (by positivity)

end Cert.Lib
-- ==== Proof.RefValue.lean ====
import proofs.«404307_j64750926954631_3_alg».proof.Proof.RefReadPatched
import proofs.«404307_j64750926954631_3_alg».proof.Proof.Rows
import proofs.«404307_j64750926954631_3_alg».proof.Proof.LibIdealReal
import Idealize.ShloMosaic.Lib.ValueIdx
import Idealize.ShloMosaic.Lib.ValueIdxRank1
import Idealize.ShloMosaic.Lib.Pipeline.Value
import Idealize.ShloMosaic.PureOps.Ideal.Laws

/-!
# The reference's result at a segment

The reference gathers, per triple, the head row, the tail row and the relation row of the triple's own segment,
scores the triple `-‖(h + r) - t'‖²`, and takes the per-segment sums of the scores and of ones with a scatter-add
at the segment words; the result is the mean where the count is positive. Read at segment `s` this is the direct
arrangement.
-/

noncomputable section

open scoped BigOperators
open Idealize.ShloMosaic Idealize.ShloMosaic.ValueIdx Cert.Seg Cert.Lib

namespace Cert.ReferenceIdeal.RefValue

open Cert.ReferenceIdeal Cert.ReferenceIdeal.ReadP

/-- The index an id column reads: row `t` of the one-column array is element `t` of the flat one. -/
private theorem col_idx (t : Fin 1000000) : idx_main_v5 (ix2 t (0 : Fin 1)) = ix1 t := by
  funext a
  match a with
  | ⟨0, _⟩ => rfl

/-- The same for the tail ids' column. -/
private theorem col_idx12 (t : Fin 1000000) : idx_main_v12 (ix2 t (0 : Fin 1)) = ix1 t := by
  funext a
  match a with
  | ⟨0, _⟩ => rfl

/-- The same for the segment words' column. -/
private theorem col_idx19 (t : Fin 1000000) : idx_main_v19 (ix2 t (0 : Fin 1)) = ix1 t := by
  funext a
  match a with
  | ⟨0, _⟩ => rfl

/-- The same for the labels' column. -/
private theorem col_idx26 (t : Fin 1000000) : idx_main_v26 (ix2 t (0 : Fin 1)) = ix1 t := by
  funext a
  match a with
  | ⟨0, _⟩ => rfl

/-- The same for the segment words as the sums' scatter places. -/
private theorem col_idx34 (t : Fin 1000000) : idx_main_v34 (ix2 t (0 : Fin 1)) = ix1 t := by
  funext a
  match a with
  | ⟨0, _⟩ => rfl

/-- The same for the segment words as the counts' scatter places. -/
private theorem col_idx38 (t : Fin 1000000) : idx_main_v38 (ix2 t (0 : Fin 1)) = ix1 t := by
  funext a
  match a with
  | ⟨0, _⟩ => rfl

/-- The program's gather from the entity table has the dimension numbers of a row gather. -/
private theorem ent_gather_eq :
    gather_S50000x128_S1000000x1_S1000000x128_1_0_n_n_0_1_1128
      = rowGatherDims 50000 128 1000000 Gen.gather_S50000x128_S1000000x1_S1000000x128_1_0_n_n_0_1_1128_wf := rfl

/-- The program's gather from the label table has the dimension numbers of an element gather. -/
private theorem lab_gather_eq :
    gather_S256_S1000000x1_S1000000_n_0_n_n_0_1_1
      = eltGatherDims 256 1000000 Gen.gather_S256_S1000000x1_S1000000_n_0_n_n_0_1_1_wf := rfl

/-- The program's gather from the relation table has the dimension numbers of a row gather. -/
private theorem rel_gather_eq :
    gather_S500x128_S1000000x1_S1000000x128_1_0_n_n_0_1_1128
      = rowGatherDims 500 128 1000000 Gen.gather_S500x128_S1000000x1_S1000000x128_1_0_n_n_0_1_1128_wf := rfl

/-- The head id of triple `t`, counted from the end of the 50000 entities when negative. -/
private theorem v4_apply (dom : (⟨S1000000, .i32⟩ : BufTy).Contents (Elt Ideal)) (t : Fin 1000000) :
    val_main_v4 (F := Ideal) dom (ix1 t) = normIdx 50000#32 (dom (ix1 t)) := by
  rw [val_main_v4_apply, val_main_v1_apply, val_main_v3_apply, val_main_v0_apply, val_main_v2_apply,
    val_main_c_apply, val_main_c_0_apply]
  rfl

/-- The gathered head row of triple `t` at place `d` is the entity row its head id selects. -/
private theorem v6_apply (E : (⟨S50000x128, .f32⟩ : BufTy).Contents (Elt Ideal))
    (dom : (⟨S1000000, .i32⟩ : BufTy).Contents (Elt Ideal)) (t : Fin 1000000) (d : Fin 128) :
    val_main_v6 (F := Ideal) E dom (ix2 t d) = entRow E dom t d := by
  unfold val_main_v6
  rw [ent_gather_eq, gather_rows_apply (by decide), val_main_v5_apply, col_idx, v4_apply]
  rfl

/-- The tail id of triple `t`, counted from the end of the 50000 entities when negative. -/
private theorem v11_apply (ran : (⟨S1000000, .i32⟩ : BufTy).Contents (Elt Ideal)) (t : Fin 1000000) :
    val_main_v11 (F := Ideal) ran (ix1 t) = normIdx 50000#32 (ran (ix1 t)) := by
  rw [val_main_v11_apply, val_main_v8_apply, val_main_v10_apply, val_main_v7_apply, val_main_v9_apply,
    val_main_c_1_apply, val_main_c_2_apply]
  rfl

/-- The gathered tail row of triple `t` at place `d` is the entity row its tail id selects. -/
private theorem v13_apply (E : (⟨S50000x128, .f32⟩ : BufTy).Contents (Elt Ideal))
    (ran : (⟨S1000000, .i32⟩ : BufTy).Contents (Elt Ideal)) (t : Fin 1000000) (d : Fin 128) :
    val_main_v13 (F := Ideal) E ran (ix2 t d) = entRow E ran t d := by
  unfold val_main_v13
  rw [ent_gather_eq, gather_rows_apply (by decide), val_main_v12_apply, col_idx12, v11_apply]
  rfl

/-- The segment word of triple `t`, counted from the end of the 256 segments when negative. -/
private theorem v18_apply (seg : (⟨S1000000, .i32⟩ : BufTy).Contents (Elt Ideal)) (t : Fin 1000000) :
    val_main_v18 (F := Ideal) seg (ix1 t) = normIdx 256#32 (seg (ix1 t)) := by
  rw [val_main_v18_apply, val_main_v15_apply, val_main_v17_apply, val_main_v14_apply, val_main_v16_apply,
    val_main_c_3_apply, val_main_c_4_apply]
  rfl

/-- The label triple `t` looks up: the label table at its segment word, clamped into the 256 labels. -/
private theorem v20_apply (seg : (⟨S1000000, .i32⟩ : BufTy).Contents (Elt Ideal))
    (lab : (⟨S256, .i32⟩ : BufTy).Contents (Elt Ideal)) (t : Fin 1000000) :
    val_main_v20 (F := Ideal) seg lab (ix1 t)
      = lab (ix1 (clampRow 256 (by decide) (normIdx 256#32 (seg (ix1 t))))) := by
  unfold val_main_v20
  rw [lab_gather_eq, gather_elts_apply (by decide), val_main_v19_apply, col_idx19, v18_apply]

/-- That label, counted from the end of the 500 relations when negative. -/
private theorem v25_apply (seg : (⟨S1000000, .i32⟩ : BufTy).Contents (Elt Ideal))
    (lab : (⟨S256, .i32⟩ : BufTy).Contents (Elt Ideal)) (t : Fin 1000000) :
    val_main_v25 (F := Ideal) seg lab (ix1 t)
      = normIdx 500#32 (lab (ix1 (clampRow 256 (by decide) (normIdx 256#32 (seg (ix1 t)))))) := by
  rw [val_main_v25_apply, val_main_v22_apply, val_main_v24_apply, val_main_v21_apply, val_main_v23_apply,
    val_main_c_5_apply, val_main_c_6_apply, v20_apply]
  rfl

/-- The gathered relation row of triple `t` at place `d` is the relation row of the label it looks up. -/
private theorem v27_apply (R : (⟨S500x128, .f32⟩ : BufTy).Contents (Elt Ideal))
    (seg : (⟨S1000000, .i32⟩ : BufTy).Contents (Elt Ideal)) (lab : (⟨S256, .i32⟩ : BufTy).Contents (Elt Ideal))
    (t : Fin 1000000) (d : Fin 128) :
    val_main_v27 (F := Ideal) R seg lab (ix2 t d) = relRowOfTriple R lab seg t d := by
  unfold val_main_v27
  rw [rel_gather_eq, gather_rows_apply (by decide), val_main_v26_apply, col_idx26, v25_apply]
  rfl

/-- The difference row of triple `t` at place `d`: `(h + r) - t'`. -/
private theorem v29_apply (E : (⟨S50000x128, .f32⟩ : BufTy).Contents (Elt Ideal)) (R : (⟨S500x128, .f32⟩ : BufTy).Contents (Elt Ideal))
    (dom ran seg : (⟨S1000000, .i32⟩ : BufTy).Contents (Elt Ideal)) (lab : (⟨S256, .i32⟩ : BufTy).Contents (Elt Ideal))
    (t : Fin 1000000) (d : Fin 128) :
    val_main_v29 (F := Ideal) E R dom ran seg lab (ix2 t d)
      = (entRow E dom t d + relRowOfTriple R lab seg t d) - entRow E ran t d := by
  rw [val_main_v29_apply, val_main_v28_apply, v6_apply, v27_apply, v13_apply]
  rfl

/-- The place a row sum reads: row `t`, column `k`. -/
private theorem row_idx (t : Fin 1000000) (k : Fin 128) : idx_main_v31 (ix1 t) k = ix2 t k := by
  funext a
  match a with
  | ⟨0, _⟩ => rfl
  | ⟨1, _⟩ => rfl

/-- The score of triple `t`: minus the sum over the 128 places of the squared difference, summed onto zero. -/
private theorem v32_apply (E : (⟨S50000x128, .f32⟩ : BufTy).Contents (Elt Ideal)) (R : (⟨S500x128, .f32⟩ : BufTy).Contents (Elt Ideal))
    (dom ran seg : (⟨S1000000, .i32⟩ : BufTy).Contents (Elt Ideal)) (lab : (⟨S256, .i32⟩ : BufTy).Contents (Elt Ideal))
    (t : Fin 1000000) :
    val_main_v32 (F := Ideal) E R dom ran seg lab (ix1 t)
      = -(0 + ∑ d : Fin 128, ((entRow E dom t d + relRowOfTriple R lab seg t d) - entRow E ran t d)
          * ((entRow E dom t d + relRowOfTriple R lab seg t d) - entRow E ran t d)) := by
  rw [val_main_v32_apply, val_main_v31_apply, val_main_cst_apply, Ideal.ofBits_def, Ideal.ofBits_zero_f32]
  show -(_) = _
  refine congrArg (fun z => -(0 + z)) (Finset.sum_congr rfl fun d _ => ?_)
  rw [val_main_v30_apply, row_idx, v29_apply]
  rfl

/-- At the ideal instance the host's accumulating scatter is the exact one (stated for whole arrays). -/
private theorem scatterAdd_ideal {sh si u : Shape} {w : Nat} {φ : FTy} (d : ScatterDims sh si u) (x : FVec Ideal sh φ)
    (idx : IVec si w) (upd : FVec Ideal u φ) :
    Host.scatterAdd d x idx upd = Ideal.hostScatterAdd d x idx upd := rfl

/-- The program's segment scatter has the dimension numbers of a segment scatter of 1000000 updates into 256. -/
private theorem scatter_dims_eq :
    scatter_S256_S1000000x1_S1000000_n_0_0_1
      = segScatterDims 256 1000000 Gen.scatter_S256_S1000000x1_S1000000_n_0_0_1_wf := rfl

/-- The scattered counts at segment `s`: a one per triple of the segment, summed onto zero. -/
private theorem v39_apply (seg : (⟨S1000000, .i32⟩ : BufTy).Contents (Elt Ideal)) (s : Fin 256) :
    val_main_v39 (F := Ideal) seg (ix1 s) = refCnt (segOf seg) s := by
  unfold val_main_v39
  rw [scatterAdd_ideal, scatter_dims_eq, hostScatterAdd_seg_apply (by decide), val_main_v37_apply,
    val_main_cst_9_apply, Ideal.ofBits_def, Ideal.ofBits_zero_f32]
  unfold refCnt
  refine congrArg (fun z => (0 : EReal) + z) (Finset.sum_congr ?_ fun t _ => ?_)
  · ext t
    simp only [Finset.mem_filter, Finset.mem_univ, true_and]
    rw [val_main_v38_apply, col_idx38]
    rfl
  · rw [val_main_v36_apply, val_main_cst_8_apply, Ideal.ofBits_def, ofBits_f32_one]

/-- The scattered sums at segment `s`: the scores of the triples of the segment, summed onto zero. -/
private theorem v35_apply (E : (⟨S50000x128, .f32⟩ : BufTy).Contents (Elt Ideal)) (R : (⟨S500x128, .f32⟩ : BufTy).Contents (Elt Ideal))
    (dom ran seg : (⟨S1000000, .i32⟩ : BufTy).Contents (Elt Ideal)) (lab : (⟨S256, .i32⟩ : BufTy).Contents (Elt Ideal))
    (s : Fin 256) :
    val_main_v35 (F := Ideal) E R dom ran seg lab (ix1 s)
      = refNum (entRow E dom) (entRow E ran) (relRowOfTriple R lab seg) (segOf seg) s := by
  unfold val_main_v35
  rw [scatterAdd_ideal, scatter_dims_eq, hostScatterAdd_seg_apply (by decide), val_main_v33_apply,
    val_main_cst_7_apply, Ideal.ofBits_def, Ideal.ofBits_zero_f32]
  unfold refNum
  refine congrArg (fun z => (0 : EReal) + z) (Finset.sum_congr ?_ fun t _ => ?_)
  · ext t
    simp only [Finset.mem_filter, Finset.mem_univ, true_and]
    rw [val_main_v34_apply, col_idx34]
    rfl
  · rw [v32_apply]

/-- The reference's result at segment `s` is the direct arrangement at `s`. -/
theorem ref_value (E : (⟨S50000x128, .f32⟩ : BufTy).Contents (Elt Ideal)) (R : (⟨S500x128, .f32⟩ : BufTy).Contents (Elt Ideal))
    (dom ran seg : (⟨S1000000, .i32⟩ : BufTy).Contents (Elt Ideal)) (lab : (⟨S256, .i32⟩ : BufTy).Contents (Elt Ideal))
    (s : Fin 256) :
    val_main_v45 (F := Ideal) E R dom ran seg lab (ix1 s)
      = closeMean (refCnt (segOf seg) s)
          (refNum (entRow E dom) (entRow E ran) (relRowOfTriple R lab seg) (segOf seg) s) := by
  rw [val_main_v45_apply, val_main_v41_apply, val_main_v44_apply, val_main_v43_apply, val_main_v40_apply,
    val_main_v42_apply, val_main_call0_v1_apply, val_main_call0_v0_apply, val_main_cst_10_apply,
    val_main_cst_11_apply, val_main_cst_12_apply, v39_apply, v35_apply, Ideal.ofBits_def, Ideal.ofBits_def]
  unfold closeMean
  rfl

end Cert.ReferenceIdeal.RefValue

end
-- ==== Proof.SegmentFlat.lean ====
import proofs.«404307_j64750926954631_3_alg».proof.Proof.SegmentSpec

/-!
# The merged one-hot product as ONE sum over the triples

The 250 runs of 4000 triples, accumulated 125 runs at a time onto zero and the two partial results added, are a
re-bracketing of the sum over all 1000000 triples: `t = 4000 (125 c + i) + k`. No property of the summands is used
beyond the commutative monoid the extended reals are under addition.
-/

noncomputable section

open scoped BigOperators
open Idealize.ShloMosaic

namespace Cert.Seg

/-- A sum over the first `m * n` naturals is a sum over `m` consecutive runs of length `n`: `t = n i + k`. -/
private theorem sum_range_mul_runs {M : Type*} [AddCommMonoid M] (f : Nat → M) (n : Nat) :
    ∀ m : Nat, ∑ t ∈ Finset.range (m * n), f t
      = ∑ i ∈ Finset.range m, ∑ k ∈ Finset.range n, f (n * i + k)
  | 0 => by simp
  | m + 1 => by
    rw [Nat.succ_mul, Finset.sum_range_add, sum_range_mul_runs f n m, Finset.sum_range_succ,
      Nat.mul_comm m n]

/-- A sum over the 1000000 triples, cut into 2 × 125 runs of 4000. -/
theorem sum_triples_cut {M : Type*} [AddCommMonoid M] (f : Nat → M) :
    ∑ t : Fin 1000000, f t.val
      = (∑ i ∈ Finset.range 125, ∑ k : Fin 4000, f (4000 * (125 * 0 + i) + k.val))
        + (∑ i ∈ Finset.range 125, ∑ k : Fin 4000, f (4000 * (125 * 1 + i) + k.val)) := by
  -- the run number of the two halves: `125 · 0 + i = i` and `125 · 1 + i = 125 + i`
  have e0 : ∀ i : Nat, 125 * 0 + i = i := fun i => by omega
  have e1 : ∀ i : Nat, 125 * 1 + i = 125 + i := fun i => by omega
  simp only [e0, e1]
  -- 1000000 = (125 + 125) · 4000: first 250 runs of 4000, then the 250 runs as 125 and 125 more
  rw [Fin.sum_univ_eq_sum_range (fun t => f t) 1000000,
    show (1000000 : Nat) = (125 + 125) * 4000 by norm_num,
    sum_range_mul_runs f 4000 (125 + 125), Finset.sum_range_add]
  refine congrArg₂ (· + ·) (Finset.sum_congr rfl fun i _ => ?_) (Finset.sum_congr rfl fun i _ => ?_)
  · exact (Fin.sum_univ_eq_sum_range (fun k => f (4000 * i + k)) 4000).symm
  · exact (Fin.sum_univ_eq_sum_range (fun k => f (4000 * (125 + i) + k)) 4000).symm

/-- The merged product is the one sum over all triples. -/
theorem merged_flat (a : Fin 1000000 → Fin 128 → EReal) (seg : Fin 1000000 → BitVec 32) (s j : Fin 256) :
    merged (extRow a) (extSeg seg) s j = ∑ t : Fin 1000000, onehot (seg t) s * rhsRow (a t) j := by
  -- the summand, read at any natural (zero past the last triple)
  have key := sum_triples_cut
    (fun t : Nat => if h : t < 1000000 then onehot (seg ⟨t, h⟩) s * rhsRow (a ⟨t, h⟩) j else (0 : EReal))
  have flat : ∑ t : Fin 1000000, onehot (seg t) s * rhsRow (a t) j
      = ∑ t : Fin 1000000,
          (fun t : Nat => if h : t < 1000000 then onehot (seg ⟨t, h⟩) s * rhsRow (a ⟨t, h⟩) j else (0 : EReal)) t.val := by
    refine Finset.sum_congr rfl fun t _ => ?_
    simp only [dif_pos t.isLt]
  rw [flat, key]
  unfold merged blockSum pointSum
  simp only [zero_add]
  -- every index `4000 (125 c + i) + k` with `c ≤ 1`, `i < 125`, `k < 4000` is a triple
  refine congrArg₂ (· + ·)
    (Finset.sum_congr rfl fun i hi => Finset.sum_congr rfl fun k _ => ?_)
    (Finset.sum_congr rfl fun i hi => Finset.sum_congr rfl fun k _ => ?_)
  · have hi' := Finset.mem_range.mp hi
    have hk := k.isLt
    have hb : 4000 * (125 * 0 + i) + k.val < 1000000 := by omega
    simp only [extRow, extSeg, dif_pos hb]
  · have hi' := Finset.mem_range.mp hi
    have hk := k.isLt
    have hb : 4000 * (125 * 1 + i) + k.val < 1000000 := by omega
    simp only [extRow, extSeg, dif_pos hb]

end Cert.Seg

end
-- ==== Proof.SegmentAlgebra.lean ====
import proofs.«404307_j64750926954631_3_alg».proof.Proof.SegmentSpec
import proofs.«404307_j64750926954631_3_alg».proof.Proof.LibIdealReal
import proofs.«404307_j64750926954631_3_alg».proof.Proof.SegmentFlat

/-!
# The expanded arrangement equals the direct one on real data
-/

noncomputable section

open scoped BigOperators
open Idealize.ShloMosaic Cert.Lib

namespace Cert.Seg

/-- In the reals: over any finite set of triples, the three accumulations of the expanded arrangement recombine to
    the sum of the squared lengths `‖(h + r) - t'‖²`, because `‖a + r‖² = ‖a‖² + 2 a·r + ‖r‖²` with `a = h - t'`. -/
private theorem real_expand {ι : Type*} (S : Finset ι) (h t' : ι → Fin 128 → ℝ) (r : Fin 128 → ℝ) :
    -(((∑ t ∈ S, ∑ d, (h t d - t' t d) * (h t d - t' t d))
        + 2 * (∑ d, (∑ t ∈ S, (h t d - t' t d)) * r d))
      + (∑ t ∈ S, (1 : ℝ)) * (∑ d, r d * r d))
    = ∑ t ∈ S, -(∑ d, ((h t d + r d) - t' t d) * ((h t d + r d) - t' t d)) := by
  have hB : ∑ d, (∑ t ∈ S, (h t d - t' t d)) * r d = ∑ t ∈ S, ∑ d, (h t d - t' t d) * r d := by
    rw [Finset.sum_comm]
    exact Finset.sum_congr rfl fun d _ => Finset.sum_mul _ _ _
  have hC : (∑ t ∈ S, (1 : ℝ)) * (∑ d, r d * r d) = ∑ t ∈ S, ∑ d, r d * r d := by
    rw [Finset.sum_mul]
    exact Finset.sum_congr rfl fun t _ => one_mul _
  rw [hB, hC, Finset.sum_neg_distrib, neg_inj, Finset.mul_sum, ← Finset.sum_add_distrib,
    ← Finset.sum_add_distrib]
  refine Finset.sum_congr rfl fun t _ => ?_
  rw [Finset.mul_sum, ← Finset.sum_add_distrib, ← Finset.sum_add_distrib]
  exact Finset.sum_congr rfl fun d _ => by ring

/-- Every entry of the merged product is the sum, over the triples of the segment alone, of the triple's row entry:
    the one-hot factor is one on the segment and zero off it. -/
private theorem merged_filter (a : Fin 1000000 → Fin 128 → EReal) (seg : Fin 1000000 → BitVec 32) (s j : Fin 256) :
    merged (extRow a) (extSeg seg) s j = ∑ t ∈ Finset.univ.filter (InSeg seg s), rhsRow (a t) j := by
  rw [merged_flat, Finset.sum_filter]
  refine Finset.sum_congr rfl fun t _ => ?_
  by_cases hc : InSeg seg s t
  · have hc' : seg t = BitVec.ofNat 32 s.val := hc
    rw [if_pos hc, onehot, if_pos hc', one_mul]
  · have hc' : ¬ seg t = BitVec.ofNat 32 s.val := hc
    rw [if_neg hc, onehot, if_neg hc', zero_mul]

/-- The first 128 places of a triple's row are its difference row. -/
private theorem rhsRow_lt (x : Fin 128 → EReal) (d : Fin 128) : rhsRow x ⟨d.val, by omega⟩ = x d := by
  unfold rhsRow
  rw [dif_pos d.isLt]

/-- Place 128 of a triple's row holds one. -/
private theorem rhsRow_128 (x : Fin 128 → EReal) : rhsRow x ⟨128, by omega⟩ = 1 := by
  simp [rhsRow, auxRow, sel]

/-- Place 129 of a triple's row holds the squared length. -/
private theorem rhsRow_129 (x : Fin 128 → EReal) : rhsRow x ⟨129, by omega⟩ = sq x := by
  simp [rhsRow, auxRow, sel]

/-- Place 130 of a triple's row holds the residual, which is zero when the squared length is real. -/
private theorem rhsRow_130 (x : Fin 128 → EReal) (hx : IsReal (sq x)) : rhsRow x ⟨130, by omega⟩ = 0 := by
  simp [rhsRow, auxRow, sel, sub_self_of_isReal hx]

/-- On real rows, with every triple of a segment looking up that segment's relation row, the expanded arrangement's
    count and sum are the direct arrangement's. -/
theorem ker_eq_ref (h t' : Fin 1000000 → Fin 128 → EReal) (r : Fin 256 → Fin 128 → EReal)
    (rt : Fin 1000000 → Fin 128 → EReal) (seg : Fin 1000000 → BitVec 32)
    (hh : ∀ t d, IsReal (h t d)) (ht : ∀ t d, IsReal (t' t d)) (hr : ∀ s d, IsReal (r s d))
    (hrt : ∀ s t, InSeg seg s t → rt t = r s) (s : Fin 256) :
    kerCnt (extRow fun t d => h t d - t' t d) (extSeg seg) s = refCnt seg s
      ∧ kerNum (extRow fun t d => h t d - t' t d) r (extSeg seg) s = refNum h t' rt seg s := by
  choose H hH using hh
  choose T hT using ht
  choose R hR using hr
  obtain rfl : h = fun t d => ((H t d : ℝ) : EReal) := funext fun t => funext fun d => hH t d
  obtain rfl : t' = fun t d => ((T t d : ℝ) : EReal) := funext fun t => funext fun d => hT t d
  obtain rfl : r = fun s d => ((R s d : ℝ) : EReal) := funext fun s => funext fun d => hR s d
  constructor
  · unfold kerCnt refCnt
    rw [merged_filter, zero_add]
    simp only [rhsRow_128]
  · unfold kerNum refNum
    have hsq : ∀ t, sq (fun d => ((H t d : ℝ) : EReal) - ((T t d : ℝ) : EReal))
        = ((∑ d, (H t d - T t d) * (H t d - T t d) : ℝ) : EReal) := by
      intro t
      unfold sq
      simp only [← EReal.coe_sub, ← EReal.coe_mul, coe_sum]
    have h130 : ∀ t, rhsRow (fun d => ((H t d : ℝ) : EReal) - ((T t d : ℝ) : EReal)) ⟨130, by omega⟩ = 0 :=
      fun t => rhsRow_130 _ (by rw [hsq]; exact IsReal.coe _)
    have hone : ∑ t ∈ Finset.univ.filter (InSeg seg s), (1 : EReal)
        = ((∑ t ∈ Finset.univ.filter (InSeg seg s), (1 : ℝ) : ℝ) : EReal) := by
      rw [← coe_sum]
      simp only [EReal.coe_one]
    have htwo : (2 : EReal) = ((2 : ℝ) : EReal) := rfl
    have hrhs : ∀ t ∈ Finset.univ.filter (InSeg seg s),
        -(0 + ∑ d : Fin 128, ((((H t d : ℝ) : EReal) + rt t d) - ((T t d : ℝ) : EReal))
            * ((((H t d : ℝ) : EReal) + rt t d) - ((T t d : ℝ) : EReal)))
        = ((-(∑ d, ((H t d + R s d) - T t d) * ((H t d + R s d) - T t d)) : ℝ) : EReal) := by
      intro t ht
      rw [hrt s t (Finset.mem_filter.mp ht).2, zero_add]
      simp only [← EReal.coe_add, ← EReal.coe_sub, ← EReal.coe_mul, coe_sum, ← EReal.coe_neg]
    rw [Finset.sum_congr rfl hrhs, coe_sum, zero_add, ← real_expand]
    simp only [merged_filter, rhsRow_lt, rhsRow_128, rhsRow_129, h130, hsq, hone, htwo,
      Finset.sum_const_zero, add_zero, zero_add]
    simp only [← EReal.coe_sub, ← EReal.coe_mul, coe_sum, ← EReal.coe_add, ← EReal.coe_neg]

end Cert.Seg

end
-- ==== Proof.Finite.lean ====
import proofs.«404307_j64750926954631_3_alg».proof.Pre_finite_inputs
import proofs.«404307_j64750926954631_3_alg».proof.Proof.Gen.Pre_finite_inputs
import proofs.«404307_j64750926954631_3_alg».proof.Proof.LibIdealReal
import Idealize.ShloMosaic.Lib.ValueIdx
import Idealize.ShloMosaic.Lib.ReduceAll
import Idealize.ShloMosaic.PureOps.Ideal.Laws

/-!
# The precondition: every entry of the two float tables is a real number

The precondition says `|x| < +∞` for every entry `x` of the entity table and of the relation table, as one
conjunction of two all-reductions. An extended real whose absolute value is below `+∞` is a real number.
-/

noncomputable section

open Idealize.ShloMosaic Idealize.ShloMosaic.ValueIdx Cert.Lib

namespace Cert.Finite

open Cert.Pre_finite_inputs

/-- The result shape of a reduction over every axis has exactly one index. -/
private theorem subsingleton_scalarIdx : Subsingleton S_.Idx :=
  ⟨fun _ _ => funext fun d => d.elim0⟩

/-- The `f32` pattern `0x7F800000` (all-ones exponent, zero fraction, sign clear) denotes `+∞`. -/
private theorem ofBits_f32_top : Ideal.ofBits .f32 0x7F800000#32 = (⊤ : EReal) := by
  simp [Ideal.ofBits, Ideal.ieee]

/-- If the comparison `|x| < +∞` comes out true, with `|x| = max x (-x)`, then `x` is real: at either
    infinity the absolute value is `+∞`, which is not strictly below itself. -/
private theorem isReal_of_bit {x : EReal}
    (h : Ideal.cmp .olt (max x (-x)) (Ideal.ofBits .f32 0x7F800000#32) = 1#1) : IsReal x := by
  rw [ofBits_f32_top] at h
  apply isReal_of_abs_lt_top
  by_contra hn
  simp [Ideal.cmp, hn] at h

/-- Under the precondition every entry of both float tables is real. -/
theorem real_of_pre (E : FVec Ideal S50000x128 .f32) (R : FVec Ideal S500x128 .f32) (dom ran seg : IVec S1000000 32)
    (lab : IVec S256 32)
    (h : Cert.Pre_finite_inputs.fn (F := Ideal) E R dom ran seg lab = fun _ => 1#1) :
    (∀ i, IsReal (E i)) ∧ (∀ i, IsReal (R i)) := by
  haveI : Subsingleton S_.Idx := subsingleton_scalarIdx
  -- the scalar result read at its one index: a conjunction of two "for all entries" bits
  have h0 := congrFun h ValueIdx.ix0
  dsimp only [Cert.Pre_finite_inputs.fn] at h0
  obtain ⟨hE, hR⟩ := IntOp.andi_eq_one.1 h0
  -- a conjunction over all entries that is true is true at each entry; there it says |x| < +∞
  exact ⟨fun i => isReal_of_bit (Host.reduce_andi_all _ _ _ _ _ hE i),
    fun i => isReal_of_bit (Host.reduce_andi_all _ _ _ _ _ hR i)⟩

end Cert.Finite

end
-- ==== Proof.Bridge.lean ====
import proofs.«404307_j64750926954631_3_alg».proof.Defs
import proofs.«404307_j64750926954631_3_alg».proof.Proof.Gen.KernelIdeal.Frame
import proofs.«404307_j64750926954631_3_alg».proof.Proof.Gen.ReferenceIdeal
import proofs.«404307_j64750926954631_3_alg».proof.Proof.Gen.Pre_finite_inputs
import proofs.«404307_j64750926954631_3_alg».proof.Proof.KernelHost
import proofs.«404307_j64750926954631_3_alg».proof.Proof.KernelArray
import proofs.«404307_j64750926954631_3_alg».proof.Proof.RefRunPatched
import proofs.«404307_j64750926954631_3_alg».proof.Proof.RefReadPatched
import proofs.«404307_j64750926954631_3_alg».proof.Proof.RefValue
import proofs.«404307_j64750926954631_3_alg».proof.Proof.SegmentAlgebra
import proofs.«404307_j64750926954631_3_alg».proof.Proof.Finite
import proofs.«404307_j64750926954631_3_alg».proof.Proof.Rows

/-!
# The two programs' results agree

The kernel program's result at a segment is the expanded arrangement of the rows it gathers (its output array after
the region is the pair of partial results; the host operations after the region close the formula); the reference's
is the direct arrangement of the same rows. Under the precondition the rows are real, and a triple of a segment
looks up that segment's relation row, so the two arrangements have the same count and the same sum, hence the same
mean.
-/

noncomputable section

open scoped BigOperators
open Idealize.ShloMosaic Idealize.ShloMosaic.ValueIdx Idealize.ShloMosaic.TcCoe Idealize.SL.Sem Cert.Seg Cert.Lib

namespace Cert.Bridge

section Kernel

open Cert.KernelIdeal Cert.KernelIdeal.Gen

variable (m : (ℓ : Loc nD τ sig) → Buf (Elt Ideal) ℓ)

/-- The kernel program's result array after the run. -/
abbrev kres (c : Dev nD) : S256.Idx → EReal :=
  Pipeline.afterTail₀ cfgs (dats m) 0 (V0 m) [hostOps1, hostOps1_1] c main_v52

/-- The rows the region streams are the head rows minus the tail rows. -/
theorem aN_eq (c : Dev nD) :
    ArrayValue.aN m c = extRow (fun t d =>
      entRow (m ((c : Thread nD τ).loc main_arg0)) (m ((c : Thread nD τ).loc main_arg2)) t d
        - entRow (m ((c : Thread nD τ).loc main_arg0)) (m ((c : Thread nD τ).loc main_arg3)) t d) := by
  show extRow (ArrayValue.aRow m c) = _
  refine congrArg extRow ?_
  funext t d
  exact HostValue.V_diff m c t d

/-- The words the region streams are the segment words. -/
theorem sN_eq (c : Dev nD) : ArrayValue.sN m c = extSeg (segOf (m ((c : Thread nD τ).loc main_arg4))) := by
  show extSeg (ArrayValue.sWord m c) = _
  refine congrArg extSeg ?_
  funext t
  exact HostValue.V_seg m c t

/-- The kernel program's result at segment `s` is the expanded arrangement of the gathered rows. -/
theorem kernel_value (c : Dev nD) (s : Fin 256) :
    kres m c (ix1 s)
      = closeMean
          (kerCnt (extRow (fun t d =>
              entRow (m ((c : Thread nD τ).loc main_arg0)) (m ((c : Thread nD τ).loc main_arg2)) t d
                - entRow (m ((c : Thread nD τ).loc main_arg0)) (m ((c : Thread nD τ).loc main_arg3)) t d))
            (extSeg (segOf (m ((c : Thread nD τ).loc main_arg4)))) s)
          (kerNum (extRow (fun t d =>
              entRow (m ((c : Thread nD τ).loc main_arg0)) (m ((c : Thread nD τ).loc main_arg2)) t d
                - entRow (m ((c : Thread nD τ).loc main_arg0)) (m ((c : Thread nD τ).loc main_arg3)) t d))
            (relRow (m ((c : Thread nD τ).loc main_arg1)) (m ((c : Thread nD τ).loc main_arg5)))
            (extSeg (segOf (m ((c : Thread nD τ).loc main_arg4)))) s) := by
  rw [show kres m c (ix1 s) = _ from HostValue.tail_value m c (ArrayValue.outArr m c) (ArrayValue.final m c) s]
  simp only [HostValue.mergedOf, ArrayValue.outArr_merged]
  rw [aN_eq, sN_eq]
  rfl

end Kernel

/-- From memories that agree on the arguments, under the precondition, the reference's result is the kernel program's. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.ValueP.res_main_v45 m' c = kres m c := by
  rw [Cert.ReferenceIdeal.ReadP.val_main_v45_eq, e0, e1, e2, e3, e4, e5]
  funext i
  obtain ⟨s, rfl⟩ : ∃ s : Fin 256, i = ix1 s := ⟨i 0, eq_ix1 i⟩
  rw [Cert.ReferenceIdeal.RefValue.ref_value, kernel_value m c s]
  obtain ⟨hE, hR⟩ := Cert.Finite.real_of_pre _ _ _ _ _ _ (hpre c)
  obtain ⟨hc, hn⟩ := ker_eq_ref
    (entRow (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
    (entRow (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
    (relRow (m ((c.tc : Thread Cert.KernelIdeal.nD Cert.KernelIdeal.τ).loc Cert.KernelIdeal.main_arg1)) (m ((c.tc : Thread Cert.KernelIdeal.nD Cert.KernelIdeal.τ).loc Cert.KernelIdeal.main_arg5)))
    (relRowOfTriple (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg4)))
    (segOf (m ((c.tc : Thread Cert.KernelIdeal.nD Cert.KernelIdeal.τ).loc Cert.KernelIdeal.main_arg4)))
    (fun t d => hE _) (fun t d => hE _) (fun s d => hR _)
    (fun s t h => relRowOfTriple_of_inSeg _ _ _ s t h) s
  rw [hc, hn]

end Cert.Bridge

end
-- ==== Proof.lean ====
import proofs.«404307_j64750926954631_3_alg».proof.Defs
import proofs.«404307_j64750926954631_3_alg».proof.Proof.Gen.Kernel
import proofs.«404307_j64750926954631_3_alg».proof.Proof.Gen.Kernel.Skeleton
import proofs.«404307_j64750926954631_3_alg».proof.Proof.Gen.Kernel.Launch
import proofs.«404307_j64750926954631_3_alg».proof.Proof.Gen.Kernel.Points
import proofs.«404307_j64750926954631_3_alg».proof.Proof.Gen.Kernel.Frame
import proofs.«404307_j64750926954631_3_alg».proof.Proof.Gen.KernelIdeal
import proofs.«404307_j64750926954631_3_alg».proof.Proof.Gen.KernelIdeal.Skeleton
import proofs.«404307_j64750926954631_3_alg».proof.Proof.Gen.KernelIdeal.Launch
import proofs.«404307_j64750926954631_3_alg».proof.Proof.Gen.KernelIdeal.Points
import proofs.«404307_j64750926954631_3_alg».proof.Proof.Gen.KernelIdeal.Frame
import proofs.«404307_j64750926954631_3_alg».proof.Proof.Gen.ReferenceIdeal
import proofs.«404307_j64750926954631_3_alg».proof.Proof.Gen.Pre_finite_inputs
import proofs.«404307_j64750926954631_3_alg».proof.Proof.RefRunPatched
import proofs.«404307_j64750926954631_3_alg».proof.Proof.Bridge
import Idealize.ShloMosaic.Adequacy
import Idealize.ShloMosaic.Init

/-!
# Per-segment mean of TransE scores: the kernel program against its reference

Both programs score a million (head, relation, tail) triples by `-‖h + r - t‖²` and average the scores over each
of 256 segments. The reference does it directly. The kernel program uses that all triples of a segment share the
relation row, `‖a + r‖² = ‖a‖² + 2 a·r + ‖r‖²` with `a = h - t`, and accumulates per segment only `∑ a`, the
count and `∑ ‖a‖²` — as one product of the one-hot segment matrix with the difference rows extended by an
auxiliary row, over 2 × 125 grid points. The frames of the two kernel programs are the generated ones; the
reference's frame is its run with the result dropped; the one rewrite of the idealization (a narrowing to bf16 and
back is the identity on the extended reals) is the rule's own statement; and the two results agree segment by
segment because the two arrangements are the same real number on real data.
-/

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Narrowing the 4000 squared lengths to bf16 and widening them back is the identity on the extended reals. -/
theorem preserves : Cert.preserves_Kernel_KernelIdeal := IdealRules.truncf_extf.statement _ .f32 .bf16

/-- Both idealized programs run, and end with the same 256 means. -/
theorem algebraic : Cert.algebraic_KernelIdeal_ReferenceIdeal := by
  intro m ρ m' ρ' hpre hagree
  refine ⟨fun c => Cert.Bridge.kres m c, ?_, ?_⟩
  · exact (θ_run Cert.KernelIdeal.defs _ _).mono (fun _ h c =>
      ⟨(h c).2 Cert.KernelIdeal.main_v52 (Pipeline.mem_restRefs_of Cert.KernelIdeal.main_v52 (by decide) (by decide)),
        ((h c).2 Cert.KernelIdeal.main_arg0 (Pipeline.mem_restRefs_of Cert.KernelIdeal.main_arg0 (by decide) (by decide))).trans (Cert.KernelIdeal.Gen.W_main_arg0 m (Cert.KernelIdeal.Gen.dats m) c),
        ((h c).2 Cert.KernelIdeal.main_arg1 (Pipeline.mem_restRefs_of Cert.KernelIdeal.main_arg1 (by decide) (by decide))).trans (Cert.KernelIdeal.Gen.W_main_arg1 m (Cert.KernelIdeal.Gen.dats m) c),
        ((h c).2 Cert.KernelIdeal.main_arg2 (Pipeline.mem_restRefs_of Cert.KernelIdeal.main_arg2 (by decide) (by decide))).trans (Cert.KernelIdeal.Gen.W_main_arg2 m (Cert.KernelIdeal.Gen.dats m) c),
        ((h c).2 Cert.KernelIdeal.main_arg3 (Pipeline.mem_restRefs_of Cert.KernelIdeal.main_arg3 (by decide) (by decide))).trans (Cert.KernelIdeal.Gen.W_main_arg3 m (Cert.KernelIdeal.Gen.dats m) c),
        ((h c).2 Cert.KernelIdeal.main_arg4 (Pipeline.mem_restRefs_of Cert.KernelIdeal.main_arg4 (by decide) (by decide))).trans (Cert.KernelIdeal.Gen.W_main_arg4 m (Cert.KernelIdeal.Gen.dats m) c),
        ((h c).2 Cert.KernelIdeal.main_arg5 (Pipeline.mem_restRefs_of Cert.KernelIdeal.main_arg5 (by decide) (by decide))).trans (Cert.KernelIdeal.Gen.W_main_arg5 m (Cert.KernelIdeal.Gen.dats m) c)⟩)
      (Cert.KernelIdeal.Gen.run_main m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5⟩ := hagree c
    exact Cert.Bridge.results_agree m m' hpre c e0 e1 e2 e3 e4 e5

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
